-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S900x92 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x900x4 : Shape := ⟨3, ![64, 900, 4]⟩
abbrev S64x900x92 : Shape := ⟨3, ![64, 900, 92]⟩
abbrev S64x300x4 : Shape := ⟨3, ![64, 300, 4]⟩
abbrev S64x300 : Shape := ⟨2, ![64, 300]⟩
abbrev S_ : Shape := ⟨0, ![]⟩
abbrev S64x300x2 : Shape := ⟨3, ![64, 300, 2]⟩

class Facts : Prop where
  bcast_S_S64x900x4 : S_.BroadcastsInDim S64x900x4 (![] : Fin 0 → Fin S64x900x4.rank)
  reducesTo_S64x900x4_S_d0_1_2 : S64x900x4.ReducesTo [0, 1, 2] S_
  h_S_ : 0 < S_.numel
  bcast_S_S64x900x92 : S_.BroadcastsInDim S64x900x92 (![] : Fin 0 → Fin S64x900x92.rank)
  reducesTo_S64x900x92_S_d0_1_2 : S64x900x92.ReducesTo [0, 1, 2] S_
  bcast_S_S64x300x4 : S_.BroadcastsInDim S64x300x4 (![] : Fin 0 → Fin S64x300x4.rank)
  reducesTo_S64x300x4_S_d0_1_2 : S64x300x4.ReducesTo [0, 1, 2] S_
  slices_S64x300x4_S64x300x2_0_0_2 : S64x300x4.Slices ![0, 0, 2] S64x300x2
  bcast_S_S64x300x2 : S_.BroadcastsInDim S64x300x2 (![] : Fin 0 → Fin S64x300x2.rank)
  reducesTo_S64x300x2_S_d0_1_2 : S64x300x2.ReducesTo [0, 1, 2] S_
  bcast_S_S64x300 : S_.BroadcastsInDim S64x300 (![] : Fin 0 → Fin S64x300.rank)
  reducesTo_S64x300_S_d0_1 : S64x300.ReducesTo [0, 1] S_

variable [Facts]

def fn_part1 {F : FTy → Type} [FloatOps F] (main_arg3 : IVec S64x300 32) (main_v13 : IVec S_ 1) (main_v16 : IVec S64x300x2 1) : IVec S_ 1 :=
  let main_c_5 : IVec S_ 1 := constantI S_ 1 1#1
  let main_v17 : IVec S_ 1 := (fun x v => Host.reduce IntOp.andi x v reducesTo_S64x300x2_S_d0_1_2 h_S_) main_v16 main_c_5
  let main_v18 : IVec S_ 1 := andi main_v13 main_v17
  let main_c_6 : IVec S_ 32 := constantI S_ 32 0#32
  let main_v19 : IVec S64x300 32 := broadcastInDim S64x300 ![] bcast_S_S64x300 main_c_6
  let main_v20 : IVec S64x300 1 := cmpi .sge main_arg3 main_v19
  let main_c_7 : IVec S_ 1 := constantI S_ 1 1#1
  let main_v21 : IVec S_ 1 := (fun x v => Host.reduce IntOp.andi x v reducesTo_S64x300_S_d0_1 h_S_) main_v20 main_c_7
  let main_v22 : IVec S_ 1 := andi main_v18 main_v21
  main_v22

def fn {F : FTy → Type} [FloatOps F] (main_arg0 : FVec F S64x900x4 .f32) (main_arg1 : FVec F S64x900x92 .f32) (main_arg2 : FVec F S64x300x4 .f32) (main_arg3 : IVec S64x300 32) : IVec S_ 1 :=
  let main_v0 : FVec F S64x900x4 .f32 := Host.absf main_arg0
  let main_cst : FVec F S_ .f32 := constant S_ .f32 0x7F800000#32
  let main_v1 : FVec F S64x900x4 .f32 := broadcastInDim S64x900x4 ![] bcast_S_S64x900x4 main_cst
  let main_v2 : IVec S64x900x4 1 := cmpf .olt main_v0 main_v1
  let main_c : IVec S_ 1 := constantI S_ 1 1#1
  let main_v3 : IVec S_ 1 := (fun x v => Host.reduce IntOp.andi x v reducesTo_S64x900x4_S_d0_1_2 h_S_) main_v2 main_c
  let main_v4 : FVec F S64x900x92 .f32 := Host.absf main_arg1
  let main_cst_0 : FVec F S_ .f32 := constant S_ .f32 0x7F800000#32
  let main_v5 : FVec F S64x900x92 .f32 := broadcastInDim S64x900x92 ![] bcast_S_S64x900x92 main_cst_0
  let main_v6 : IVec S64x900x92 1 := cmpf .olt main_v4 main_v5
  let main_c_1 : IVec S_ 1 := constantI S_ 1 1#1
  let main_v7 : IVec S_ 1 := (fun x v => Host.reduce IntOp.andi x v reducesTo_S64x900x92_S_d0_1_2 h_S_) main_v6 main_c_1
  let main_v8 : IVec S_ 1 := andi main_v3 main_v7
  let main_v9 : FVec F S64x300x4 .f32 := Host.absf main_arg2
  let main_cst_2 : FVec F S_ .f32 := constant S_ .f32 0x7F800000#32
  let main_v10 : FVec F S64x300x4 .f32 := broadcastInDim S64x300x4 ![] bcast_S_S64x300x4 main_cst_2
  let main_v11 : IVec S64x300x4 1 := cmpf .olt main_v9 main_v10
  let main_c_3 : IVec S_ 1 := constantI S_ 1 1#1
  let main_v12 : IVec S_ 1 := (fun x v => Host.reduce IntOp.andi x v reducesTo_S64x300x4_S_d0_1_2 h_S_) main_v11 main_c_3
  let main_v13 : IVec S_ 1 := andi main_v8 main_v12
  let main_v14 : FVec F S64x300x2 .f32 := (extractStridedSlice S64x300x2 ![0, 0, 2] · slices_S64x300x4_S64x300x2_0_0_2) main_arg2
  let main_cst_4 : FVec F S_ .f32 := constant S_ .f32 0x00000000#32
  let main_v15 : FVec F S64x300x2 .f32 := broadcastInDim S64x300x2 ![] bcast_S_S64x300x2 main_cst_4
  let main_v16 : IVec S64x300x2 1 := cmpf .oge main_v14 main_v15
  fn_part1 (F := F) main_arg3 main_v13 main_v16
-- ==== Kernel.lean ====
abbrev S64x900x4 : Shape := ⟨3, ![64, 900, 4]⟩
abbrev S64x900x92 : Shape := ⟨3, ![64, 900, 92]⟩
abbrev S64x300x4 : Shape := ⟨3, ![64, 300, 4]⟩
abbrev S64x300 : Shape := ⟨2, ![64, 300]⟩
abbrev S64x4x300 : Shape := ⟨3, ![64, 4, 300]⟩
abbrev S_ : Shape := ⟨0, ![]⟩
abbrev S64x1x300 : Shape := ⟨3, ![64, 1, 300]⟩
abbrev S64x900x300 : Shape := ⟨3, ![64, 900, 300]⟩
abbrev S4x900x4 : Shape := ⟨3, ![4, 900, 4]⟩
abbrev S4x4x300 : Shape := ⟨3, ![4, 4, 300]⟩
abbrev S4x900x92 : Shape := ⟨3, ![4, 900, 92]⟩
abbrev S4x1x300 : Shape := ⟨3, ![4, 1, 300]⟩
abbrev S4x900x300 : Shape := ⟨3, ![4, 900, 300]⟩
abbrev S1x900x4 : Shape := ⟨3, ![1, 900, 4]⟩
abbrev S900x4 : Shape := ⟨2, ![900, 4]⟩
abbrev S1x4x300 : Shape := ⟨3, ![1, 4, 300]⟩
abbrev S4x300 : Shape := ⟨2, ![4, 300]⟩
abbrev S900x1 : Shape := ⟨2, ![900, 1]⟩
abbrev S1x300 : Shape := ⟨2, ![1, 300]⟩
abbrev S900x300 : Shape := ⟨2, ![900, 300]⟩
abbrev S1x900x92 : Shape := ⟨3, ![1, 900, 92]⟩
abbrev S900x92 : Shape := ⟨2, ![900, 92]⟩
abbrev S1x1x300 : Shape := ⟨3, ![1, 1, 300]⟩
abbrev S92x300 : Shape := ⟨2, ![92, 300]⟩
abbrev S1x900x300 : Shape := ⟨3, ![1, 900, 300]⟩

abbrev nBuf : Space → Nat
  | .hbm => 15
  | .vmem => 10
  | .smem => 0
  | _ => 0

abbrev bufTy : (tb : Table) → Fin (tcTables nBuf tb) → BufTy
  | .hbm, ⟨0, _⟩ => ⟨S64x900x4, .f32⟩
  | .hbm, ⟨1, _⟩ => ⟨S64x900x92, .f32⟩
  | .hbm, ⟨2, _⟩ => ⟨S64x300x4, .f32⟩
  | .hbm, ⟨3, _⟩ => ⟨S64x300, .i32⟩
  | .hbm, ⟨4, _⟩ => ⟨S64x4x300, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64x300, .i32⟩
  | .hbm, ⟨9, _⟩ => ⟨S64x300, .i32⟩
  | .hbm, ⟨10, _⟩ => ⟨S_, .i32⟩
  | .hbm, ⟨11, _⟩ => ⟨S64x300, .i32⟩
  | .hbm, ⟨12, _⟩ => ⟨S64x300, .i32⟩
  | .hbm, ⟨13, _⟩ => ⟨S64x1x300, .i32⟩
  | .hbm, ⟨14, _⟩ => ⟨S64x900x300, .f32⟩
  | .local _ .vmem, ⟨0, _⟩ => ⟨S4x900x4, .f32⟩
  | .local _ .vmem, ⟨1, _⟩ => ⟨S4x900x4, .f32⟩
  | .local _ .vmem, ⟨2, _⟩ => ⟨S4x4x300, .f32⟩
  | .local _ .vmem, ⟨3, _⟩ => ⟨S4x4x300, .f32⟩
  | .local _ .vmem, ⟨4, _⟩ => ⟨S4x900x92, .f32⟩
  | .local _ .vmem, ⟨5, _⟩ => ⟨S4x900x92, .f32⟩
  | .local _ .vmem, ⟨6, _⟩ => ⟨S4x1x300, .i32⟩
  | .local _ .vmem, ⟨7, _⟩ => ⟨S4x1x300, .i32⟩
  | .local _ .vmem, ⟨8, _⟩ => ⟨S4x900x300, .f32⟩
  | .local _ .vmem, ⟨9, _⟩ => ⟨S4x900x300, .f32⟩
  | _, _ => ⟨S64x900x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_off1 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v3 : Index := Scalar.indexCast v2
  let c0 : Index := 0#32
  let c0_3 : Index := 0#32
  ![v3.toNat, 0, 0]
def k0_off2 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v6 : Index := Scalar.indexCast v2
  let c0_4 : Index := 0#32
  let c0_5 : Index := 0#32
  ![v6.toNat, 0, 0]
def k0_off3 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v152 : Index := Scalar.indexCast v2
  let c0_29 : Index := 0#32
  let c0_30 : Index := 0#32
  ![v152.toNat, 0, 0]
def k0_off4 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v155 : Index := Scalar.indexCast v2
  let c0_31 : Index := 0#32
  let c0_32 : Index := 0#32
  ![v155.toNat, 0, 0]
def k0_off5 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v173 : Index := Scalar.indexCast v2
  let c0_35 : Index := 0#32
  let c0_36 : Index := 0#32
  ![v173.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x900x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x900x92 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x300 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x900x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x300x4_S64x4x300_0_2_1 : S64x300x4.Transposes [0, 2, 1] S64x4x300
  bcast_S_S64x300 : S_.BroadcastsInDim S64x300 (![] : Fin 0 → Fin S64x300.rank)
  bcast_S64x300_S64x1x300_0_2 : S64x300.BroadcastsInDim S64x1x300 (![0, 2] : Fin 2 → Fin S64x1x300.rank)
  h_S1x900x4 : 0 < S1x900x4.numel
  shapeCasts_S1x900x4_S900x4 : S1x900x4.ShapeCasts S900x4
  h_S1x4x300 : 0 < S1x4x300.numel
  shapeCasts_S1x4x300_S4x300 : S1x4x300.ShapeCasts S4x300
  slices_S900x4_o0_0_S900x1 : S900x4.Slices ![0, 0] S900x1
  slices_S900x4_o0_2_S900x1 : S900x4.Slices ![0, 2] S900x1
  slices_S900x4_o0_1_S900x1 : S900x4.Slices ![0, 1] S900x1
  slices_S900x4_o0_3_S900x1 : S900x4.Slices ![0, 3] S900x1
  slices_S4x300_o0_0_S1x300 : S4x300.Slices ![0, 0] S1x300
  slices_S4x300_o2_0_S1x300 : S4x300.Slices ![2, 0] S1x300
  slices_S4x300_o1_0_S1x300 : S4x300.Slices ![1, 0] S1x300
  slices_S4x300_o3_0_S1x300 : S4x300.Slices ![3, 0] S1x300
  broadcasts_S900x1_S900x300 : S900x1.Broadcasts S900x300
  broadcasts_S1x300_S900x300 : S1x300.Broadcasts S900x300
  h_S1x900x92 : 0 < S1x900x92.numel
  shapeCasts_S1x900x92_S900x92 : S1x900x92.ShapeCasts S900x92
  h_S1x1x300 : 0 < S1x1x300.numel
  shapeCasts_S1x1x300_S1x300 : S1x1x300.ShapeCasts S1x300
  iota_S92x300_d0_w32 : S92x300.Iotas .tc 32 [0]
  broadcasts_S1x300_S92x300 : S1x300.Broadcasts S92x300
  natLt_1_32 : 1 < 32
  bitsLt_bf16_f32 : FTy.bits .bf16 < FTy.bits .f32
  h_S1x900x300 : 0 < S1x900x300.numel
  shapeCasts_S1x900x300_S900x300 : S1x900x300.ShapeCasts S900x300
  shapeCasts_S900x300_S1x900x300 : S900x300.ShapeCasts S1x900x300
  dot_S900x92_S92x300_S900x300_1_0_0_1_n_n_wf : DotDims.WF S900x92 S92x300 S900x300 [1] [0] [0] [1] [] []
  hrank0 : 0 < grid0.rank
  k0_t1_ok : k0_t1_loop.OK
  k0_off1_inb : ∀ k0_t1 : Fin k0_t1_loop.trips, ∀ a, (k0_off1 k0_t1) a + S1x900x4.size a ≤ S4x900x4.size a
  k0_off2_inb : ∀ k0_t1 : Fin k0_t1_loop.trips, ∀ a, (k0_off2 k0_t1) a + S1x4x300.size a ≤ S4x4x300.size a
  k0_off3_inb : ∀ k0_t1 : Fin k0_t1_loop.trips, ∀ a, (k0_off3 k0_t1) a + S1x900x92.size a ≤ S4x900x92.size a
  k0_off4_inb : ∀ k0_t1 : Fin k0_t1_loop.trips, ∀ a, (k0_off4 k0_t1) a + S1x1x300.size a ≤ S4x1x300.size a
  k0_off5_inb : ∀ k0_t1 : Fin k0_t1_loop.trips, ∀ a, (k0_off5 k0_t1) a + S1x900x300.size a ≤ S4x900x300.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x900x4.size a ≤ S64x900x4.size a
  hwx0_0 : ∀ i : grid0.Coords, EltTy.bits .f32 = 32 ∨ (Rect.block (s := S64x900x4) S4x900x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x300.size a ≤ S64x4x300.size a
  hwx0_1 : ∀ i : grid0.Coords, EltTy.bits .f32 = 32 ∨ (Rect.block (s := S64x4x300) S4x4x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x900x92.size a ≤ S64x900x92.size a
  hwx0_2 : ∀ i : grid0.Coords, EltTy.bits .f32 = 32 ∨ (Rect.block (s := S64x900x92) S4x900x92.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x300.size a ≤ S64x1x300.size a
  hwx0_3 : ∀ i : grid0.Coords, EltTy.bits .i32 = 32 ∨ (Rect.block (s := S64x1x300) S4x1x300.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x900x300.size a ≤ S64x900x300.size a
  hwx0_4 : ∀ i : grid0.Coords, EltTy.bits .f32 = 32 ∨ (Rect.block (s := S64x900x300) S4x900x300.size (cc0_transform_4 i) (hinb0_4 i)).WholeWords (EltTy.packing .f32)

variable [Facts₀]

def dot_S900x92_S92x300_S900x300_1_0_0_1_n_n : DotDims S900x92 S92x300 S900x300 where
  lhsContracting := [1]
  rhsContracting := [0]
  lhsNonContracting := [0]
  rhsNonContracting := [1]
  lhsBatch := []
  rhsBatch := []
  wf := dot_S900x92_S92x300_S900x300_1_0_0_1_n_n_wf

abbrev win0_0 : Pipeline.Window sig grid0 :=
  Pipeline.Window.ofSpec (Memref.whole main_arg0) S4x900x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x4x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x900x92.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x1x300.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x900x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x900x4 : Shape := ⟨3, ![64, 900, 4]⟩
abbrev S64x900x92 : Shape := ⟨3, ![64, 900, 92]⟩
abbrev S64x300x4 : Shape := ⟨3, ![64, 300, 4]⟩
abbrev S64x300 : Shape := ⟨2, ![64, 300]⟩
abbrev S64x900x1x4 : Shape := ⟨4, ![64, 900, 1, 4]⟩
abbrev S64x1x300x4 : Shape := ⟨4, ![64, 1, 300, 4]⟩
abbrev S64x900x300x4 : Shape := ⟨4, ![64, 900, 300, 4]⟩
abbrev S_ : Shape := ⟨0, ![]⟩
abbrev S64x900x300 : Shape := ⟨3, ![64, 900, 300]⟩
abbrev S64x900x2 : Shape := ⟨3, ![64, 900, 2]⟩
abbrev S64x300x2 : Shape := ⟨3, ![64, 300, 2]⟩
abbrev S64x900x1x2 : Shape := ⟨4, ![64, 900, 1, 2]⟩
abbrev S64x1x300x2 : Shape := ⟨4, ![64, 1, 300, 2]⟩
abbrev S64x900x300x2 : Shape := ⟨4, ![64, 900, 300, 2]⟩
abbrev S64x900x300x1 : Shape := ⟨4, ![64, 900, 300, 1]⟩
abbrev S64x900x1 : Shape := ⟨3, ![64, 900, 1]⟩
abbrev S64x900 : Shape := ⟨2, ![64, 900]⟩
abbrev S64x300x1 : Shape := ⟨3, ![64, 300, 1]⟩
abbrev S64x1x300 : Shape := ⟨3, ![64, 1, 300]⟩

abbrev nBuf : Space → Nat
  | .hbm => 132
  | .vmem => 0
  | .smem => 0
  | _ => 0

abbrev hbmTy0_0 (i : Nat) : BufTy := match i % 128 with
  | 0 => ⟨S64x900x4, .f32⟩
  | 1 => ⟨S64x900x92, .f32⟩
  | 2 => ⟨S64x300x4, .f32⟩
  | 3 => ⟨S64x300, .i32⟩
  | 4 => ⟨S64x900x1x4, .f32⟩
  | 5 => ⟨S64x1x300x4, .f32⟩
  | 6 => ⟨S64x900x300x4, .f32⟩
  | 7 => ⟨S64x900x300x4, .f32⟩
  | 8 => ⟨S64x900x300x4, .f32⟩
  | 9 => ⟨S64x900x300x4, .f32⟩
  | 10 => ⟨S_, .f32⟩
  | 11 => ⟨S64x900x300, .f32⟩
  | 12 => ⟨S64x900x2, .f32⟩
  | 13 => ⟨S64x900x2, .f32⟩
  | 14 => ⟨S_, .f32⟩
  | 15 => ⟨S64x900x2, .f32⟩
  | 16 => ⟨S64x900x2, .f32⟩
  | 17 => ⟨S64x900x2, .f32⟩
  | 18 => ⟨S64x900x2, .f32⟩
  | 19 => ⟨S64x900x2, .f32⟩
  | 20 => ⟨S_, .f32⟩
  | 21 => ⟨S64x900x2, .f32⟩
  | 22 => ⟨S64x900x2, .f32⟩
  | 23 => ⟨S64x900x2, .f32⟩
  | 24 => ⟨S64x300x2, .f32⟩
  | 25 => ⟨S64x300x2, .f32⟩
  | 26 => ⟨S_, .f32⟩
  | 27 => ⟨S64x300x2, .f32⟩
  | 28 => ⟨S64x300x2, .f32⟩
  | 29 => ⟨S64x300x2, .f32⟩
  | 30 => ⟨S64x300x2, .f32⟩
  | 31 => ⟨S64x300x2, .f32⟩
  | 32 => ⟨S_, .f32⟩
  | 33 => ⟨S64x300x2, .f32⟩
  | 34 => ⟨S64x300x2, .f32⟩
  | 35 => ⟨S64x300x2, .f32⟩
  | 36 => ⟨S64x900x1x2, .f32⟩
  | 37 => ⟨S64x900x1x2, .f32⟩
  | 38 => ⟨S64x1x300x2, .f32⟩
  | 39 => ⟨S64x1x300x2, .f32⟩
  | 40 => ⟨S64x900x300x2, .f32⟩
  | 41 => ⟨S64x900x300x2, .f32⟩
  | 42 => ⟨S64x900x300x2, .f32⟩
  | 43 => ⟨S64x900x300x2, .f32⟩
  | 44 => ⟨S64x900x300x2, .f32⟩
  | 45 => ⟨S64x900x300x2, .f32⟩
  | 46 => ⟨S64x900x300x2, .f32⟩
  | 47 => ⟨S_, .f32⟩
  | 48 => ⟨S64x900x300x2, .f32⟩
  | 49 => ⟨S64x900x300x2, .f32⟩
  | 50 => ⟨S_, .f32⟩
  | 51 => ⟨S64x900x300x2, .f32⟩
  | 52 => ⟨S64x900x300x2, .f32⟩
  | 53 => ⟨S64x900x300x1, .f32⟩
  | 54 => ⟨S64x900x300, .f32⟩
  | 55 => ⟨S64x900x300x1, .f32⟩
  | 56 => ⟨S64x900x300, .f32⟩
  | 57 => ⟨S64x900x300, .f32⟩
  | 58 => ⟨S64x900x2, .f32⟩
  | 59 => ⟨S_, .f32⟩
  | 60 => ⟨S64x900x2, .f32⟩
  | 61 => ⟨S64x900x2, .f32⟩
  | 62 => ⟨S_, .f32⟩
  | 63 => ⟨S64x900x2, .f32⟩
  | 64 => ⟨S64x900x2, .f32⟩
  | 65 => ⟨S64x900x1, .f32⟩
  | 66 => ⟨S64x900, .f32⟩
  | 67 => ⟨S64x900x1, .f32⟩
  | 68 => ⟨S64x900, .f32⟩
  | 69 => ⟨S64x900, .f32⟩
  | 70 => ⟨S64x300x2, .f32⟩
  | 71 => ⟨S_, .f32⟩
  | 72 => ⟨S64x300x2, .f32⟩
  | 73 => ⟨S64x300x2, .f32⟩
  | 74 => ⟨S_, .f32⟩
  | 75 => ⟨S64x300x2, .f32⟩
  | 76 => ⟨S64x300x2, .f32⟩
  | 77 => ⟨S64x300x1, .f32⟩
  | 78 => ⟨S64x300, .f32⟩
  | 79 => ⟨S64x300x1, .f32⟩
  | 80 => ⟨S64x300, .f32⟩
  | 81 => ⟨S64x300, .f32⟩
  | 82 => ⟨S64x900x1, .f32⟩
  | 83 => ⟨S64x1x300, .f32⟩
  | 84 => ⟨S64x900x300, .f32⟩
  | 85 => ⟨S64x900x300, .f32⟩
  | 86 => ⟨S64x900x300, .f32⟩
  | 87 => ⟨S64x900x300, .f32⟩
  | 88 => ⟨S64x900x300, .f32⟩
  | 89 => ⟨S64x900x300x2, .f32⟩
  | 90 => ⟨S64x900x300x2, .f32⟩
  | 91 => ⟨S64x900x300x2, .f32⟩
  | 92 => ⟨S64x900x300x2, .f32⟩
  | 93 => ⟨S64x900x300x2, .f32⟩
  | 94 => ⟨S64x900x300x2, .f32⟩
  | 95 => ⟨S64x900x300x2, .f32⟩
  | 96 => ⟨S_, .f32⟩
  | 97 => ⟨S64x900x300x2, .f32⟩
  | 98 => ⟨S64x900x300x2, .f32⟩
  | 99 => ⟨S_, .f32⟩
  | 100 => ⟨S64x900x300x2, .f32⟩
  | 101 => ⟨S64x900x300x2, .f32⟩
  | 102 => ⟨S64x900x300x1, .f32⟩
  | 103 => ⟨S64x900x300, .f32⟩
  | 104 => ⟨S64x900x300x1, .f32⟩
  | 105 => ⟨S64x900x300, .f32⟩
  | 106 => ⟨S64x900x300, .f32⟩
  | 107 => ⟨S64x900x300, .f32⟩
  | 108 => ⟨S64x900x300, .f32⟩
  | 109 => ⟨S64x900x300, .f32⟩
  | 110 => ⟨S64x900x300, .f32⟩
  | 111 => ⟨S_, .i32⟩
  | 112 => ⟨S64x300, .i32⟩
  | 113 => ⟨S64x300, .i1⟩
  | 114 => ⟨S_, .i32⟩
  | 115 => ⟨S64x300, .i32⟩
  | 116 => ⟨S64x300, .i32⟩
  | 117 => ⟨S64x300, .i32⟩
  | 118 => ⟨S64x300x1, .i32⟩
  | 119 => ⟨S64x900x300, .f32⟩
  | 120 => ⟨S64x900x300, .f32⟩
  | 121 => ⟨S_, .f32⟩
  | 122 => ⟨S64x900x300, .f32⟩
  | 123 => ⟨S64x900x300, .f32⟩
  | 124 => ⟨S_, .f32⟩
  | 125 => ⟨S64x900x300, .f32⟩
  | 126 => ⟨S64x900x300, .f32⟩
  | 127 => ⟨S64x900x300, .f32⟩
  | _ => ⟨S64x900x4, .f32⟩

abbrev hbmTy0_1 (i : Nat) : BufTy := match i % 128 with
  | 0 => ⟨S_, .f32⟩
  | 1 => ⟨S64x900x300, .f32⟩
  | 2 => ⟨S64x900x300, .f32⟩
  | 3 => ⟨S64x900x300, .f32⟩
  | _ => ⟨S64x900x4, .f32⟩

abbrev hbmTy (i : Nat) : BufTy := match i / 128 with
  | 0 => hbmTy0_0 i
  | 1 => hbmTy0_1 i
  | _ => ⟨S64x900x4, .f32⟩

abbrev bufTy : (tb : Table) → Fin (tcTables nBuf tb) → BufTy
  | .hbm, ⟨i, _⟩ => hbmTy i
  | _, _ => ⟨S64x900x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_10 : Ref sig .tc := ⟨.hbm, 96, rfl⟩
abbrev main_v81 : Ref sig .tc := ⟨.hbm, 97, rfl⟩
abbrev main_v82 : Ref sig .tc := ⟨.hbm, 98, rfl⟩
abbrev main_cst_11 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_c : Ref sig .tc := ⟨.hbm, 111, rfl⟩
abbrev main_v94 : Ref sig .tc := ⟨.hbm, 112, rfl⟩
abbrev main_v95 : Ref sig .tc := ⟨.hbm, 113, rfl⟩
abbrev main_c_12 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_13 : Ref sig .tc := ⟨.hbm, 121, rfl⟩
abbrev main_v102 : Ref sig .tc := ⟨.hbm, 122, rfl⟩
abbrev main_v103 : Ref sig .tc := ⟨.hbm, 123, rfl⟩
abbrev main_cst_14 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_15 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩

abbrev nD : Nat := 1
abbrev τ : Topo := Topo.v7x

variable {F : FTy → Type} [FloatOps F]

class Facts₀ : Prop where
  bcast_S64x900x4_S64x900x1x4_0_1_3 : S64x900x4.BroadcastsInDim S64x900x1x4 (![0, 1, 3] : Fin 3 → Fin S64x900x1x4.rank)
  bcast_S64x300x4_S64x1x300x4_0_2_3 : S64x300x4.BroadcastsInDim S64x1x300x4 (![0, 2, 3] : Fin 3 → Fin S64x1x300x4.rank)
  bcast_S64x900x1x4_S64x900x300x4_0_1_2_3 : S64x900x1x4.BroadcastsInDim S64x900x300x4 (![0, 1, 2, 3] : Fin 4 → Fin S64x900x300x4.rank)
  bcast_S64x1x300x4_S64x900x300x4_0_1_2_3 : S64x1x300x4.BroadcastsInDim S64x900x300x4 (![0, 1, 2, 3] : Fin 4 → Fin S64x900x300x4.rank)
  reducesTo_S64x900x300x4_S64x900x300_d3 : S64x900x300x4.ReducesTo [3] S64x900x300
  h_S_ : 0 < S_.numel
  slices_S64x900x4_S64x900x2_0_0_0 : S64x900x4.Slices ![0, 0, 0] S64x900x2
  slices_S64x900x4_S64x900x2_0_0_2 : S64x900x4.Slices ![0, 0, 2] S64x900x2
  bcast_S_S64x900x2 : S_.BroadcastsInDim S64x900x2 (![] : Fin 0 → Fin S64x900x2.rank)
  slices_S64x300x4_S64x300x2_0_0_0 : S64x300x4.Slices ![0, 0, 0] S64x300x2
  slices_S64x300x4_S64x300x2_0_0_2 : S64x300x4.Slices ![0, 0, 2] S64x300x2
  bcast_S_S64x300x2 : S_.BroadcastsInDim S64x300x2 (![] : Fin 0 → Fin S64x300x2.rank)
  bcast_S64x900x2_S64x900x1x2_0_1_3 : S64x900x2.BroadcastsInDim S64x900x1x2 (![0, 1, 3] : Fin 3 → Fin S64x900x1x2.rank)
  bcast_S64x300x2_S64x1x300x2_0_2_3 : S64x300x2.BroadcastsInDim S64x1x300x2 (![0, 2, 3] : Fin 3 → Fin S64x1x300x2.rank)
  bcast_S64x900x1x2_S64x900x300x2_0_1_2_3 : S64x900x1x2.BroadcastsInDim S64x900x300x2 (![0, 1, 2, 3] : Fin 4 → Fin S64x900x300x2.rank)
  bcast_S64x1x300x2_S64x900x300x2_0_1_2_3 : S64x1x300x2.BroadcastsInDim S64x900x300x2 (![0, 1, 2, 3] : Fin 4 → Fin S64x900x300x2.rank)
  bcast_S_S64x900x300x2 : S_.BroadcastsInDim S64x900x300x2 (![] : Fin 0 → Fin S64x900x300x2.rank)
  slices_S64x900x300x2_S64x900x300x1_0_0_0_0 : S64x900x300x2.Slices ![0, 0, 0, 0] S64x900x300x1
  shapeCasts_S64x900x300x1_S64x900x300 : S64x900x300x1.ShapeCasts S64x900x300
  slices_S64x900x300x2_S64x900x300x1_0_0_0_1 : S64x900x300x2.Slices ![0, 0, 0, 1] S64x900x300x1
  slices_S64x900x2_S64x900x1_0_0_0 : S64x900x2.Slices ![0, 0, 0] S64x900x1
  shapeCasts_S64x900x1_S64x900 : S64x900x1.ShapeCasts S64x900
  slices_S64x900x2_S64x900x1_0_0_1 : S64x900x2.Slices ![0, 0, 1] S64x900x1
  slices_S64x300x2_S64x300x1_0_0_0 : S64x300x2.Slices ![0, 0, 0] S64x300x1
  shapeCasts_S64x300x1_S64x300 : S64x300x1.ShapeCasts S64x300
  slices_S64x300x2_S64x300x1_0_0_1 : S64x300x2.Slices ![0, 0, 1] S64x300x1
  bcast_S64x900_S64x900x1_0_1 : S64x900.BroadcastsInDim S64x900x1 (![0, 1] : Fin 2 → Fin S64x900x1.rank)
  bcast_S64x300_S64x1x300_0_2 : S64x300.BroadcastsInDim S64x1x300 (![0, 2] : Fin 2 → Fin S64x1x300.rank)
  bcast_S64x900x1_S64x900x300_0_1_2 : S64x900x1.BroadcastsInDim S64x900x300 (![0, 1, 2] : Fin 3 → Fin S64x900x300.rank)
  bcast_S64x1x300_S64x900x300_0_1_2 : S64x1x300.BroadcastsInDim S64x900x300 (![0, 1, 2] : Fin 3 → Fin S64x900x300.rank)
  bcast_S_S64x300 : S_.BroadcastsInDim S64x300 (![] : Fin 0 → Fin S64x300.rank)
  bcast_S64x300_S64x300x1_0_1 : S64x300.BroadcastsInDim S64x300x1 (![0, 1] : Fin 2 → Fin S64x300x1.rank)
  bcast_S_S64x900x300 : S_.BroadcastsInDim S64x900x300 (![] : Fin 0 → Fin S64x900x300.rank)
  gather_S64x900x92_S64x300x1_S64x900x300_1_2_0_0_2_2_19001_wf : GatherDims.WF S64x900x92 S64x300x1 S64x900x300 [1] [2] [0] [2] [0] 2 ![1, 900, 1]

variable [Facts₀]

def gather_S64x900x92_S64x300x1_S64x900x300_1_2_0_0_2_2_19001 : GatherDims S64x900x92 S64x300x1 S64x900x300 where
  offsetDims := [1]
  collapsedSliceDims := [2]
  operandBatchingDims := [0]
  startIndicesBatchingDims := [0]
  startIndexMap := [2]
  indexVectorDim := 2
  sliceSizes := ![1, 900, 1]
  wf := gather_S64x900x92_S64x300x1_S64x900x300_1_2_0_0_2_2_19001_wf

class Facts : Prop extends Facts₀ where

variable [Facts]
-- ==== Proof.TripValue.lean ====
/-
  One trip of the kernel's loop over the four batch rows of a block, as one value: the [1, 900, 300] slab it stores,
  as a function of the four slabs it loads (the predicted boxes, the transposed ground-truth boxes, the class scores
  and the clipped labels of that batch row).
-/
import proofs.«428950_j31078383354739_3_alg».proof.Proof.Gen.KernelIdeal.Skeleton

noncomputable section

namespace Cert.KernelIdeal.Trip

open Cert.KernelIdeal Cert.KernelIdeal.Gen Idealize.ShloMosaic

variable {F : FTy → Type} [FloatOps F]

/-- The slab a trip stores: the body's payloads composed in program order over the trip's four loads. -/
def tripValue (v4 : Vec F S1x900x4 .f32) (v7 : Vec F S1x4x300 .f32) (v153 : Vec F S1x900x92 .f32)
    (v156 : Vec F S1x1x300 .i32) : FVec F S1x900x300 .f32 :=
  k0_pay1
    (k0_pay21 (k0_pay5 v4) (k0_pay7 v4) (k0_pay9 v7)
      (k0_pay13 (k0_pay11 v7) (k0_pay12 v7) (Scalar.ofBits .f32 0x3F000000#32))
      (k0_pay14 (k0_pay4 v4) (k0_pay6 v4) (k0_pay8 v7) (k0_pay10 v7))
      (k0_pay15 (k0_pay4 v4) (k0_pay6 v4) (k0_pay8 v7) (k0_pay10 v7))
      (k0_pay16 (k0_pay4 v4) (k0_pay6 v4))
      (k0_pay17 (k0_pay8 v7) (k0_pay10 v7))
      (k0_pay18 (k0_pay5 v4) (k0_pay7 v4) (k0_pay9 v7) (k0_pay11 v7) (k0_pay12 v7) (Scalar.ofBits .f32 0x3F000000#32))
      (k0_pay19 (k0_pay7 v4) (k0_pay11 v7) (k0_pay12 v7) (Scalar.ofBits .f32 0x3F000000#32))
      (k0_pay20 (k0_pay5 v4)))
    (k0_pay22 (k0_pay2 v4) (k0_pay3 v7))
    (k0_pay23 (k0_pay2 v4) (k0_pay3 v7))
    v153 v156

end Cert.KernelIdeal.Trip

end
-- ==== Proof.KernelBlock.lean ====
/-
  What the kernel's loop leaves in one staged output block.

  A grid point stages four batch rows of each operand; the body's loop runs once per batch row k, loads the k-th
  [1, …] slab of each of the four input blocks and stores one [1, 900, 300] slab at batch row k of the output block.
  So the block the point flushes holds, at (k, n, q), the trip's value of the k-th slabs at (0, n, q): the four
  stores tile the block and each is that function of its own rows.
-/
import proofs.«428950_j31078383354739_3_alg».proof.Proof.Gen.KernelIdeal.Frame
import proofs.«428950_j31078383354739_3_alg».proof.Proof.TripValue
import Idealize.ShloMosaic.Lib.Writes
import Idealize.ShloMosaic.Lib.ValueIdx

set_option maxRecDepth 16384

noncomputable section

namespace Cert.KernelIdeal.Block

open Cert.KernelIdeal Cert.KernelIdeal.Gen Cert.KernelIdeal.Trip
open Idealize.ShloMosaic Idealize.ShloMosaic.TcCoe Idealize.ShloMosaic.Tactic Idealize.SL.Sem

variable {F : FTy → Type} [FloatOps F]

/-- The loop makes four trips. -/
theorem trips_eq : k0_t1_loop.trips = 4 := by decide

/-- Batch row `k` of each staged input block, as the [1, …] slab the trip loads. -/
abbrev slab1 (x0 : Vec F S4x900x4 .f32) (k : Fin k0_t1_loop.trips) : Vec F S1x900x4 .f32 :=
  View.ld x0 (Rect.unit (s := S4x900x4) (k0_off1 k) S1x900x4.size (k0_off1_inb k))
abbrev slab2 (x1 : Vec F S4x4x300 .f32) (k : Fin k0_t1_loop.trips) : Vec F S1x4x300 .f32 :=
  View.ld x1 (Rect.unit (s := S4x4x300) (k0_off2 k) S1x4x300.size (k0_off2_inb k))
abbrev slab3 (x2 : Vec F S4x900x92 .f32) (k : Fin k0_t1_loop.trips) : Vec F S1x900x92 .f32 :=
  View.ld x2 (Rect.unit (s := S4x900x92) (k0_off3 k) S1x900x92.size (k0_off3_inb k))
abbrev slab4 (x3 : Vec F S4x1x300 .i32) (k : Fin k0_t1_loop.trips) : Vec F S1x1x300 .i32 :=
  View.ld x3 (Rect.unit (s := S4x1x300) (k0_off4 k) S1x1x300.size (k0_off4_inb k))

/-- The one piece a trip writes: the slab at batch row `k` of the output block, holding the trip's value of the
    `k`-th input slabs. -/
theorem trip_piece (𝒱 : Variants) (c : Dev nD) (bd : Option 𝒱.V) (i : grid0.Coords) (arg1 : Memref sig .tc .vmem S4x900x4 .f32) (harg1 : arg1.IsWhole) (arg2 : Memref sig .tc .vmem S4x4x300 .f32) (harg2 : arg2.IsWhole) (arg3 : Memref sig .tc .vmem S4x900x92 .f32) (harg3 : arg3.IsWhole) (arg4 : Memref sig .tc .vmem S4x1x300 .i32) (harg4 : arg4.IsWhole) (arg5 : Memref sig .tc .vmem S4x900x300 .f32) (harg5 : arg5.IsWhole)
    (x0 : Vec F S4x900x4 .f32) (x1 : Vec F S4x4x300 .f32) (x2 : Vec F S4x900x92 .f32) (x3 : Vec F S4x1x300 .i32) (k : Fin k0_t1_loop.trips) :
    tripL_k0_t1 (F := F) 𝒱 c bd i arg1 harg1 arg2 harg2 arg3 harg3 arg4 harg4 arg5 harg5 (harg1.unread x0) (harg2.unread x1) (harg3.unread x2) (harg4.unread x3) k
      = [⟨Rect.unit (s := S4x900x300) (k0_off5 k) S1x900x300.size (k0_off5_inb k), tripValue (slab1 x0 k) (slab2 x1 k) (slab3 x2 k) (slab4 x3 k)⟩] := by
  unfold tripL_k0_t1 trip_k0_t1
  dsimp only
  sl_unfold_words
  simp only [View.readAt_eq_ld, harg1.read_unread, harg2.read_unread, harg3.read_unread, harg4.read_unread]
  rfl

/-- The body's run leaves the pieces of the four trips, newest first. -/
theorem run_pieces (c : Dev nD) (i : grid0.Coords) (arg1 : Memref sig .tc .vmem S4x900x4 .f32) (harg1 : arg1.IsWhole) (arg2 : Memref sig .tc .vmem S4x4x300 .f32) (harg2 : arg2.IsWhole) (arg3 : Memref sig .tc .vmem S4x900x92 .f32) (harg3 : arg3.IsWhole) (arg4 : Memref sig .tc .vmem S4x1x300 .i32) (harg4 : arg4.IsWhole) (arg5 : Memref sig .tc .vmem S4x900x300 .f32) (harg5 : arg5.IsWhole)
    (x0 : Vec F S4x900x4 .f32) (x1 : Vec F S4x4x300 .f32) (x2 : Vec F S4x900x92 .f32) (x3 : Vec F S4x1x300 .i32) :
    (kernelRun0_A c i arg1 harg1 arg2 harg2 arg3 harg3 arg4 harg4 arg5 harg5 x0 x1 x2 x3).1
      = pb_k0_t1 (F := F) Variants.none c none i arg1 harg1 arg2 harg2 arg3 harg3 arg4 harg4 arg5 harg5 (harg1.unread x0) (harg2.unread x1) (harg3.unread x2) (harg4.unread x3) k0_t1_loop.trips := by
  unfold kernelRun0_A
  rfl

/-- The batch row of a block index, as a trip of the loop. -/
def tripOf (y : S4x900x300.Idx) : Fin k0_t1_loop.trips := ⟨(y 0).val, by rw [trips_eq]; exact (y 0).isLt⟩

/-- What the loop leaves in the output block: at (k, n, q) the trip's value of the k-th slabs at (0, n, q). -/
def blockValue (x0 : Vec F S4x900x4 .f32) (x1 : Vec F S4x4x300 .f32) (x2 : Vec F S4x900x92 .f32) (x3 : Vec F S4x1x300 .i32) :
    Vec F S4x900x300 .f32 := fun y =>
  tripValue (slab1 x0 (tripOf y)) (slab2 x1 (tripOf y)) (slab3 x2 (tripOf y)) (slab4 x3 (tripOf y))
    (ValueIdx.ix3 (0 : Fin 1) (y 1 : Fin 900) (y 2 : Fin 300))

/-- The trip's slab, read at its own index, is the block's function at that index placed in the block. -/
theorem slab_agree (x0 : Vec F S4x900x4 .f32) (x1 : Vec F S4x4x300 .f32) (x2 : Vec F S4x900x92 .f32) (x3 : Vec F S4x1x300 .i32)
    (k : Fin k0_t1_loop.trips) (x : (Rect.unit (s := S4x900x300) (k0_off5 k) S1x900x300.size (k0_off5_inb k)).shape.Idx) :
    tripValue (slab1 x0 k) (slab2 x1 k) (slab3 x2 k) (slab4 x3 k) x
      = blockValue x0 x1 x2 x3 ((Rect.unit (s := S4x900x300) (k0_off5 k) S1x900x300.size (k0_off5_inb k)).emb x) := by
  have h0 : (x 0).val = 0 := by
    have h : (x 0).val < 1 := (x 0).isLt
    omega
  have e0 : (k0_off5 k) 0 = k.val := (congrFun (k0_off5_eq k) 0).trans rfl
  have e1 : (k0_off5 k) 1 = 0 := (congrFun (k0_off5_eq k) 1).trans rfl
  have e2 : (k0_off5 k) 2 = 0 := (congrFun (k0_off5_eq k) 2).trans rfl
  have hk : tripOf ((Rect.unit (s := S4x900x300) (k0_off5 k) S1x900x300.size (k0_off5_inb k)).emb x) = k := Fin.ext (by
    show (k0_off5 k) 0 + 1 * (x 0).val = k.val
    omega)
  unfold blockValue
  rw [hk]
  refine congrArg (tripValue (slab1 x0 k) (slab2 x1 k) (slab3 x2 k) (slab4 x3 k)) ?_
  funext a
  match a with
  | ⟨0, _⟩ => exact Fin.ext h0
  | ⟨1, _⟩ => exact Fin.ext (by
      show (x 1).val = (k0_off5 k) 1 + 1 * (x 1).val
      omega)
  | ⟨2, _⟩ => exact Fin.ext (by
      show (x 2).val = (k0_off5 k) 2 + 1 * (x 2).val
      omega)

/-- Every piece of the trips before `n` holds the block's function on its own rows. -/
theorem pieces_agree (𝒱 : Variants) (c : Dev nD) (bd : Option 𝒱.V) (i : grid0.Coords) (arg1 : Memref sig .tc .vmem S4x900x4 .f32) (harg1 : arg1.IsWhole) (arg2 : Memref sig .tc .vmem S4x4x300 .f32) (harg2 : arg2.IsWhole) (arg3 : Memref sig .tc .vmem S4x900x92 .f32) (harg3 : arg3.IsWhole) (arg4 : Memref sig .tc .vmem S4x1x300 .i32) (harg4 : arg4.IsWhole) (arg5 : Memref sig .tc .vmem S4x900x300 .f32) (harg5 : arg5.IsWhole)
    (x0 : Vec F S4x900x4 .f32) (x1 : Vec F S4x4x300 .f32) (x2 : Vec F S4x900x92 .f32) (x3 : Vec F S4x1x300 .i32) :
    ∀ n, n ≤ k0_t1_loop.trips →
      ∀ p ∈ pb_k0_t1 (F := F) 𝒱 c bd i arg1 harg1 arg2 harg2 arg3 harg3 arg4 harg4 arg5 harg5 (harg1.unread x0) (harg2.unread x1) (harg3.unread x2) (harg4.unread x3) n,
        ∀ x : p.1.shape.Idx, p.2 x = blockValue x0 x1 x2 x3 (p.1.emb x)
  | 0, _, p, hp, _ => by
    rw [pb_k0_t1.eq_1] at hp
    exact absurd hp List.not_mem_nil
  | n + 1, hn, p, hp, x => by
    have hlt : n < k0_t1_loop.trips := hn
    have hs := pb_k0_t1_succ (F := F) 𝒱 c bd i arg1 harg1 arg2 harg2 arg3 harg3 arg4 harg4 arg5 harg5 (harg1.unread x0) (harg2.unread x1) (harg3.unread x2) (harg4.unread x3) ⟨n, hlt⟩
    rw [trip_piece] at hs
    rw [show n + 1 = (⟨n, hlt⟩ : Fin k0_t1_loop.trips).val + 1 from rfl, hs] at hp
    rcases List.mem_append.mp hp with h | h
    · obtain rfl := List.mem_singleton.mp h
      exact slab_agree x0 x1 x2 x3 ⟨n, hlt⟩ x
    · exact pieces_agree 𝒱 c bd i arg1 harg1 arg2 harg2 arg3 harg3 arg4 harg4 arg5 harg5 x0 x1 x2 x3 n (Nat.le_of_lt hlt) p h x

end Cert.KernelIdeal.Block

end
-- ==== Proof.KernelArray.lean ====
/-
  The kernel's result array, entry by entry.

  Grid point t stages batch rows 4t … 4t+3 of every operand (each index map is (t, 0, 0)) and flushes the output block
  back to the same rows. With the block's contents known (at (k, n, q) the trip's value of the k-th slabs), the array
  after the run holds, at (b, n, q), the trip's value of batch row b of the four staged arrays at (0, n, q): the
  sixteen blocks tile the array. Two of the staged arrays are written by the host lines before the call: the
  ground-truth boxes transposed to [64, 4, 300], and the labels clipped into [0, 91] and laid out as [64, 1, 300].
-/
import proofs.«428950_j31078383354739_3_alg».proof.Proof.Gen.KernelIdeal.Value
import proofs.«428950_j31078383354739_3_alg».proof.Proof.KernelBlock
import Idealize.ShloMosaic.Lib.Pipeline.Value
import Idealize.ShloMosaic.Lib.ValueIdx

set_option maxRecDepth 16384

noncomputable section

namespace Cert.KernelIdeal.Array

open Cert.KernelIdeal Cert.KernelIdeal.Gen Cert.KernelIdeal.Trip Cert.KernelIdeal.Block
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The staged output block is the block's function of the staged input blocks: the run's pieces are the four
    trips' (each agreeing with it on its rows), and together they cover the block. -/
theorem out_block (c : Dev nD) (i : grid0.Coords) (arg1 : Memref sig .tc .vmem S4x900x4 .f32) (harg1 : arg1.IsWhole) (arg2 : Memref sig .tc .vmem S4x4x300 .f32) (harg2 : arg2.IsWhole) (arg3 : Memref sig .tc .vmem S4x900x92 .f32) (harg3 : arg3.IsWhole) (arg4 : Memref sig .tc .vmem S4x1x300 .i32) (harg4 : arg4.IsWhole) (arg5 : Memref sig .tc .vmem S4x900x300 .f32) (harg5 : arg5.IsWhole)
    (x0 : Vec F S4x900x4 .f32) (x1 : Vec F S4x4x300 .f32) (x2 : Vec F S4x900x92 .f32) (x3 : Vec F S4x1x300 .i32) :
    out0_A_4 c i arg1 harg1 arg2 harg2 arg3 harg3 arg4 harg4 arg5 harg5 x0 x1 x2 x3 = blockValue x0 x1 x2 x3 := by
  funext y
  unfold out0_A_4
  refine View.read_writes_apply_of_pieces VO0_4 _ (blockValue x0 x1 x2 x3) _ ?_ y
    (cover0_A_4 c i arg1 harg1 arg2 harg2 arg3 harg3 arg4 harg4 arg5 harg5 x0 x1 x2 x3 y)
  rw [run_pieces]
  exact pieces_agree Variants.none c none i arg1 harg1 arg2 harg2 arg3 harg3 arg4 harg4 arg5 harg5 x0 x1 x2 x3
    k0_t1_loop.trips (Nat.le_refl _)

/-- Batch row `b` of each staged array, as a [1, …] slab. -/
abbrev rows0 (A : Vec F S64x900x4 .f32) (b : Fin 64) : Vec F S1x900x4 .f32 :=
  fun z => A (ValueIdx.ix3 b (z 1 : Fin 900) (z 2 : Fin 4))
abbrev rows1 (A : Vec F S64x4x300 .f32) (b : Fin 64) : Vec F S1x4x300 .f32 :=
  fun z => A (ValueIdx.ix3 b (z 1 : Fin 4) (z 2 : Fin 300))
abbrev rows2 (A : Vec F S64x900x92 .f32) (b : Fin 64) : Vec F S1x900x92 .f32 :=
  fun z => A (ValueIdx.ix3 b (z 1 : Fin 900) (z 2 : Fin 92))
abbrev rows3 (A : Vec F S64x1x300 .i32) (b : Fin 64) : Vec F S1x1x300 .i32 :=
  fun z => A (ValueIdx.ix3 b (z 1 : Fin 1) (z 2 : Fin 300))

/-- The result array as one function of the four staged arrays. -/
def arrayValue (A0 : Vec F S64x900x4 .f32) (A1 : Vec F S64x4x300 .f32) (A2 : Vec F S64x900x92 .f32) (A3 : Vec F S64x1x300 .i32) :
    Vec F S64x900x300 .f32 := fun i =>
  tripValue (rows0 A0 (i 0 : Fin 64)) (rows1 A1 (i 0 : Fin 64)) (rows2 A2 (i 0 : Fin 64)) (rows3 A3 (i 0 : Fin 64))
    (ValueIdx.ix3 (0 : Fin 1) (i 1 : Fin 900) (i 2 : Fin 300))

/-- The printed index maps, decided over the sixteen grid points: every window's block index is (t, 0, 0). -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point `t` writes back is block `t` of that function of the arrays as the call finds them. -/
theorem flushed_eq (c : Dev nD) (t : Fin cfg0.N) :
    (dats m 0 c).flushed 4 t = ((cfg0.win 4).blk t).view.read (Elt F)
      (arrayValue (V m c main_arg0) (V m c main_v0) (V m c main_arg1) (V m c main_v2)) := by
  rw [Value.flushed4_A, out_block]
  obtain ⟨a0, a1, a2, b0, b1, b2, c0, c1, c2, d0, d1, d2, e0, e1, e2⟩ := idx_facts t
  funext j
  show blockValue (iblk m c 0 t) (iblk m c 1 t) (iblk m c 2 t) (iblk m c 3 t) j
    = arrayValue (V m c main_arg0) (V m c main_v0) (V m c main_arg1) (V m c main_v2) (((cfg0.win 4).blk t).view.emb j)
  have hj0 : (tripOf j).val = (j 0).val := rfl
  have o10 : (k0_off1 (tripOf j)) 0 = (j 0).val := (congrFun (k0_off1_eq (tripOf j)) 0).trans rfl
  have o11 : (k0_off1 (tripOf j)) 1 = 0 := (congrFun (k0_off1_eq (tripOf j)) 1).trans rfl
  have o12 : (k0_off1 (tripOf j)) 2 = 0 := (congrFun (k0_off1_eq (tripOf j)) 2).trans rfl
  have o20 : (k0_off2 (tripOf j)) 0 = (j 0).val := (congrFun (k0_off2_eq (tripOf j)) 0).trans rfl
  have o21 : (k0_off2 (tripOf j)) 1 = 0 := (congrFun (k0_off2_eq (tripOf j)) 1).trans rfl
  have o22 : (k0_off2 (tripOf j)) 2 = 0 := (congrFun (k0_off2_eq (tripOf j)) 2).trans rfl
  have o30 : (k0_off3 (tripOf j)) 0 = (j 0).val := (congrFun (k0_off3_eq (tripOf j)) 0).trans rfl
  have o31 : (k0_off3 (tripOf j)) 1 = 0 := (congrFun (k0_off3_eq (tripOf j)) 1).trans rfl
  have o32 : (k0_off3 (tripOf j)) 2 = 0 := (congrFun (k0_off3_eq (tripOf j)) 2).trans rfl
  have o40 : (k0_off4 (tripOf j)) 0 = (j 0).val := (congrFun (k0_off4_eq (tripOf j)) 0).trans rfl
  have o41 : (k0_off4 (tripOf j)) 1 = 0 := (congrFun (k0_off4_eq (tripOf j)) 1).trans rfl
  have o42 : (k0_off4 (tripOf j)) 2 = 0 := (congrFun (k0_off4_eq (tripOf j)) 2).trans rfl
  have s1 : slab1 (iblk m c 0 t) (tripOf j)
      = rows0 (V m c main_arg0) ((((cfg0.win 4).blk t).view.emb j) 0 : Fin 64) := by
    funext z
    have hz : (z 0).val < 1 := (z 0).isLt
    show V m c main_arg0 (((cfg0.win 0).blk t).view.emb ((Rect.unit (s := S4x900x4) (k0_off1 (tripOf j)) S1x900x4.size (k0_off1_inb (tripOf j))).idx z))
      = V m c main_arg0 (ValueIdx.ix3 ((((cfg0.win 4).blk t).view.emb j) 0 : Fin 64) (z 1 : Fin 900) (z 2 : Fin 4))
    refine congrArg (V m c main_arg0) (funext fun a => Fin.ext ?_)
    match a with
    | ⟨0, _⟩ =>
      show win0_0.index t (0 : Fin 3) * 4 + 1 * ((k0_off1 (tripOf j)) 0 + 1 * (z 0).val) = win0_4.index t (0 : Fin 3) * 4 + 1 * (j 0).val
      omega
    | ⟨1, _⟩ =>
      show win0_0.index t (1 : Fin 3) * 900 + 1 * ((k0_off1 (tripOf j)) 1 + 1 * (z 1).val) = (z 1).val
      omega
    | ⟨2, _⟩ =>
      show win0_0.index t (2 : Fin 3) * 4 + 1 * ((k0_off1 (tripOf j)) 2 + 1 * (z 2).val) = (z 2).val
      omega
  have s2 : slab2 (iblk m c 1 t) (tripOf j)
      = rows1 (V m c main_v0) ((((cfg0.win 4).blk t).view.emb j) 0 : Fin 64) := by
    funext z
    have hz : (z 0).val < 1 := (z 0).isLt
    show V m c main_v0 (((cfg0.win 1).blk t).view.emb ((Rect.unit (s := S4x4x300) (k0_off2 (tripOf j)) S1x4x300.size (k0_off2_inb (tripOf j))).idx z))
      = V m c main_v0 (ValueIdx.ix3 ((((cfg0.win 4).blk t).view.emb j) 0 : Fin 64) (z 1 : Fin 4) (z 2 : Fin 300))
    refine congrArg (V m c main_v0) (funext fun a => Fin.ext ?_)
    match a with
    | ⟨0, _⟩ =>
      show win0_1.index t (0 : Fin 3) * 4 + 1 * ((k0_off2 (tripOf j)) 0 + 1 * (z 0).val) = win0_4.index t (0 : Fin 3) * 4 + 1 * (j 0).val
      omega
    | ⟨1, _⟩ =>
      show win0_1.index t (1 : Fin 3) * 4 + 1 * ((k0_off2 (tripOf j)) 1 + 1 * (z 1).val) = (z 1).val
      omega
    | ⟨2, _⟩ =>
      show win0_1.index t (2 : Fin 3) * 300 + 1 * ((k0_off2 (tripOf j)) 2 + 1 * (z 2).val) = (z 2).val
      omega
  have s3 : slab3 (iblk m c 2 t) (tripOf j)
      = rows2 (V m c main_arg1) ((((cfg0.win 4).blk t).view.emb j) 0 : Fin 64) := by
    funext z
    have hz : (z 0).val < 1 := (z 0).isLt
    show V m c main_arg1 (((cfg0.win 2).blk t).view.emb ((Rect.unit (s := S4x900x92) (k0_off3 (tripOf j)) S1x900x92.size (k0_off3_inb (tripOf j))).idx z))
      = V m c main_arg1 (ValueIdx.ix3 ((((cfg0.win 4).blk t).view.emb j) 0 : Fin 64) (z 1 : Fin 900) (z 2 : Fin 92))
    refine congrArg (V m c main_arg1) (funext fun a => Fin.ext ?_)
    match a with
    | ⟨0, _⟩ =>
      show win0_2.index t (0 : Fin 3) * 4 + 1 * ((k0_off3 (tripOf j)) 0 + 1 * (z 0).val) = win0_4.index t (0 : Fin 3) * 4 + 1 * (j 0).val
      omega
    | ⟨1, _⟩ =>
      show win0_2.index t (1 : Fin 3) * 900 + 1 * ((k0_off3 (tripOf j)) 1 + 1 * (z 1).val) = (z 1).val
      omega
    | ⟨2, _⟩ =>
      show win0_2.index t (2 : Fin 3) * 92 + 1 * ((k0_off3 (tripOf j)) 2 + 1 * (z 2).val) = (z 2).val
      omega
  have s4 : slab4 (iblk m c 3 t) (tripOf j)
      = rows3 (V m c main_v2) ((((cfg0.win 4).blk t).view.emb j) 0 : Fin 64) := by
    funext z
    have hz : (z 0).val < 1 := (z 0).isLt
    show V m c main_v2 (((cfg0.win 3).blk t).view.emb ((Rect.unit (s := S4x1x300) (k0_off4 (tripOf j)) S1x1x300.size (k0_off4_inb (tripOf j))).idx z))
      = V m c main_v2 (ValueIdx.ix3 ((((cfg0.win 4).blk t).view.emb j) 0 : Fin 64) (z 1 : Fin 1) (z 2 : Fin 300))
    refine congrArg (V m c main_v2) (funext fun a => Fin.ext ?_)
    match a with
    | ⟨0, _⟩ =>
      show win0_3.index t (0 : Fin 3) * 4 + 1 * ((k0_off4 (tripOf j)) 0 + 1 * (z 0).val) = win0_4.index t (0 : Fin 3) * 4 + 1 * (j 0).val
      omega
    | ⟨1, _⟩ =>
      show win0_3.index t (1 : Fin 3) * 1 + 1 * ((k0_off4 (tripOf j)) 1 + 1 * (z 1).val) = (z 1).val
      omega
    | ⟨2, _⟩ =>
      show win0_3.index t (2 : Fin 3) * 300 + 1 * ((k0_off4 (tripOf j)) 2 + 1 * (z 2).val) = (z 2).val
      omega
  have hidx : (ValueIdx.ix3 (0 : Fin 1) (j 1 : Fin 900) (j 2 : Fin 300) : S1x900x300.Idx)
      = ValueIdx.ix3 (0 : Fin 1) ((((cfg0.win 4).blk t).view.emb j) 1 : Fin 900) ((((cfg0.win 4).blk t).view.emb j) 2 : Fin 300) := by
    funext a
    match a with
    | ⟨0, _⟩ => rfl
    | ⟨1, _⟩ =>
      refine Fin.ext ?_
      show (j 1).val = win0_4.index t (1 : Fin 3) * 900 + 1 * (j 1).val
      omega
    | ⟨2, _⟩ =>
      refine Fin.ext ?_
      show (j 2).val = win0_4.index t (2 : Fin 3) * 300 + 1 * (j 2).val
      omega
  unfold blockValue arrayValue
  rw [s1, s2, s3, s4, hidx]
  rfl

/-- An index of the result array is in point `t`'s block iff each coordinate is in the block's range on its axis. -/
theorem mem_blk (t : Fin cfg0.N) (i : S64x900x300.Idx) :
    i ∈ ((cfg0.win 4).blk t).view.set ↔ ∀ a : Fin 3, win0_4.index t a * S4x900x300.size a ≤ (i a).val
      ∧ (i a).val < win0_4.index t a * S4x900x300.size a + S4x900x300.size a := by
  show i ∈ ((View.whole main_v3).slice (win0_4.rect t)).set ↔ _
  rw [View.set_slice_whole, Rect.mem_set_unit]
  exact Iff.rfl

/-- Every entry (b, n, q) is in the block of point b / 4, which is written back. -/
theorem covered (i : S64x900x300.Idx) :
    ∃ t : Fin cfg0.N, (cfg0.win 4).flush t = true ∧ i ∈ ((cfg0.win 4).blk t).view.set := by
  have hi0 : (i 0).val < 64 := (i 0).isLt
  have hi1 : (i 1).val < 900 := (i 1).isLt
  have hi2 : (i 2).val < 300 := (i 2).isLt
  have hlt : (i 0).val / 4 < cfg0.N := by show _ < grid0.N; rw [N_0]; omega
  refine ⟨⟨(i 0).val / 4, hlt⟩, flush0_4 _, ?_⟩
  rw [mem_blk]
  obtain ⟨-, -, -, -, -, -, -, -, -, -, -, -, e0, e1, e2⟩ := idx_facts ⟨(i 0).val / 4, hlt⟩
  have e0' : win0_4.index ⟨(i 0).val / 4, hlt⟩ (0 : Fin 3) = (i 0).val / 4 := e0
  intro a
  match a with
  | ⟨0, _⟩ =>
    show win0_4.index ⟨(i 0).val / 4, _⟩ (0 : Fin 3) * 4 ≤ (i 0).val ∧ (i 0).val < win0_4.index ⟨(i 0).val / 4, _⟩ (0 : Fin 3) * 4 + 4
    omega
  | ⟨1, _⟩ =>
    show win0_4.index ⟨(i 0).val / 4, _⟩ (1 : Fin 3) * 900 ≤ (i 1).val ∧ (i 1).val < win0_4.index ⟨(i 0).val / 4, _⟩ (1 : Fin 3) * 900 + 900
    omega
  | ⟨2, _⟩ =>
    show win0_4.index ⟨(i 0).val / 4, _⟩ (2 : Fin 3) * 300 ≤ (i 2).val ∧ (i 2).val < win0_4.index ⟨(i 0).val / 4, _⟩ (2 : Fin 3) * 300 + 300
    omega

/-- The result array after the run is that function of the arrays as the call finds them. -/
theorem final (c : Dev nD) : (dats m 0 c).arrAt 4 cfg0.N
    = arrayValue (V m c main_arg0) (V m c main_v0) (V m c main_arg1) (V m c main_v2) :=
  (dats m 0 c).arrAt_eq_of_cover 4 _ (fun t _ => flushed_eq m c t) covered

/-- The host lines before the call: the ground-truth boxes transposed, -/
theorem V_main_v0 (c : Dev nD) : (V m c main_v0 : S64x4x300.Idx → Elt F .f32)
    = transpose S64x4x300 [0, 2, 1] (m ((c : Thread nD τ).loc main_arg2)) transposes_S64x300x4_S64x4x300_0_2_1 := by
  dsimp only [V]
  simp only [hostOps0, hostOps0_1, hostOps0_2, List.flatten_cons, List.flatten_nil, List.append_nil, List.cons_append,
    List.nil_append]
  after_results

/-- and the labels clipped into [0, 91] and given a unit middle axis. -/
theorem V_main_v2 (c : Dev nD) : (V m c main_v2 : S64x1x300.Idx → Elt F .i32)
    = broadcastInDim S64x1x300 ![0, 2] bcast_S64x300_S64x1x300_0_2
        (minsi (broadcastInDim S64x300 ![] bcast_S_S64x300 (constantI S_ 32 91#32))
          (maxsi (broadcastInDim S64x300 ![] bcast_S_S64x300 (constantI S_ 32 0#32)) (m ((c : Thread nD τ).loc main_arg3)))) := by
  dsimp only [V]
  simp only [hostOps0, hostOps0_1, hostOps0_2, List.flatten_cons, List.flatten_nil, List.append_nil, List.cons_append,
    List.nil_append]
  after_results
  rfl

end Cert.KernelIdeal.Array

end
-- ==== Proof.Spec.lean ====
/-
  The pairwise matching cost, entry by entry, as both programs compute it on the extended reals.

  For a predicted box p = (cx, cy, w, h), a ground-truth box g, the predicted class scores lp (92 of them) and the
  ground-truth label l, the cost is  L1(p, g) + (bg(p, g) - iou(p, g)) - lp[l]:
  the boxes' corners are centre minus or plus half the size; along each axis the overlap, the hull and each box's own length carry
  the "+1 pixel" convention and are clipped at zero; areas are products of the two axes' lengths;
  union = area p + area g - inter, iou = inter / union, bg = (bound - union) / bound.
  The kernel spells the class score as two contractions of the score row with the label's one-hot column (the row itself and
  the row minus itself), the reference as a gather; the kernel sums the four coordinate distances left to right, the
  reference as a reduction from zero; the kernel writes bg - iou, the reference -(iou - bg) and multiplies each term by 1.
-/
import Idealize.ShloMosaic.PureOps.Ideal
import Idealize.ShloMosaic.Lib.ValueIdx

noncomputable section

namespace Cert.BoxCost

open Idealize.ShloMosaic
open scoped BigOperators

/-- The three float literals both programs carry: 0.5, 1.0, 0.0. -/
abbrev half : EReal := Ideal.ofBits .f32 0x3F000000#32
abbrev one : EReal := Ideal.ofBits .f32 0x3F800000#32
abbrev zero : EReal := Ideal.ofBits .f32 0x00000000#32

/-- A box's lower and upper corner along one axis, from its centre `c` and its size `s`. -/
def lo (c s : EReal) : EReal := c - half * s
def hi (c s : EReal) : EReal := c + half * s

/-- Along one axis: the overlap of two intervals, their hull, and one interval's own length, each with one pixel
    added and clipped at zero. -/
def overlap (l₁ h₁ l₂ h₂ : EReal) : EReal := max (min h₁ h₂ - max l₁ l₂ + one) zero
def hull (l₁ h₁ l₂ h₂ : EReal) : EReal := max (max h₁ h₂ - min l₁ l₂ + one) zero
def len (l h : EReal) : EReal := max (h - l + one) zero

/-- Intersection area, bounding-box area, and a box's own area (x axis: coordinates 0 and 2; y axis: 1 and 3). -/
def inter (p g : Fin 4 → EReal) : EReal :=
  overlap (lo (p 0) (p 2)) (hi (p 0) (p 2)) (lo (g 0) (g 2)) (hi (g 0) (g 2))
    * overlap (lo (p 1) (p 3)) (hi (p 1) (p 3)) (lo (g 1) (g 3)) (hi (g 1) (g 3))
def bound (p g : Fin 4 → EReal) : EReal :=
  hull (lo (p 0) (p 2)) (hi (p 0) (p 2)) (lo (g 0) (g 2)) (hi (g 0) (g 2))
    * hull (lo (p 1) (p 3)) (hi (p 1) (p 3)) (lo (g 1) (g 3)) (hi (g 1) (g 3))
def area (p : Fin 4 → EReal) : EReal :=
  len (lo (p 0) (p 2)) (hi (p 0) (p 2)) * len (lo (p 1) (p 3)) (hi (p 1) (p 3))

def union (p g : Fin 4 → EReal) : EReal := area p + area g - inter p g
def iou (p g : Fin 4 → EReal) : EReal := Ideal.div (inter p g) (union p g)
def bgRatio (p g : Fin 4 → EReal) : EReal := Ideal.div (bound p g - union p g) (bound p g)

/-- The distance of two coordinates: the absolute value of their difference. -/
def dist (x y : EReal) : EReal := max (x - y) (-(x - y))

/-- Entry `k` of the one-hot column of label `l`: the word comparison widened to 32 bits and read as a number. -/
def hot (l : BitVec 32) (k : Fin 92) : EReal :=
  ((((IntOp.cmpi .eq l (BitVec.ofNat 32 k.val)).setWidth 32).toInt : ℝ) : EReal)

/-- The label as the kernel's host prefix clips it into [0, 91], and as the reference wraps a negative one by 92. -/
def clipLabel (l : BitVec 32) : BitVec 32 := IntOp.minsi 91#32 (IntOp.maxsi 0#32 l)
def wrapLabel (l : BitVec 32) : BitVec 32 := Scalar.select (IntOp.cmpi .slt l 0#32) (IntOp.addi l 92#32) l

/-- The score column the reference's gather reads for label `l`: the wrapped label read signed, clamped into [0, 91]. -/
def gatherCol (l : BitVec 32) : Fin 92 :=
  ⟨min (wrapLabel l).toInt.toNat 91, Nat.lt_succ_of_le (Nat.min_le_right _ _)⟩

/-- The kernel's entry: the four distances summed left to right, plus bg - iou, minus the two contractions of the score
    row `lp` (the row, and the row less itself) with the one-hot column of the clipped label `l`. -/
def costKernel (p g : Fin 4 → EReal) (lp : Fin 92 → EReal) (l : BitVec 32) : EReal :=
  ((((dist (p 0) (g 0) + dist (p 1) (g 1)) + dist (p 2) (g 2)) + dist (p 3) (g 3)) + (bgRatio p g - iou p g))
    - ((zero + ∑ k : Fin 92, lp k * hot l k) + (zero + ∑ k : Fin 92, (lp k - lp k) * hot l k))

/-- The reference's entry: each term times 1.0, the distances reduced from zero, -(iou - bg), and minus the gathered
    score `s`. -/
def costReference (p g : Fin 4 → EReal) (s : EReal) : EReal :=
  (one * (zero + ∑ k : Fin 4, dist (p k) (g k)) + one * (-(iou p g - bgRatio p g))) + one * (-s)

end Cert.BoxCost

end
-- ==== Proof.KernelEntry.lean ====
/-
  The slab one trip of the kernel's loop stores, read at an entry: the matching cost of predicted box n and
  ground-truth box q of the trip's batch row, as the specification's costKernel spells it.
-/
import proofs.«428950_j31078383354739_3_alg».proof.Proof.Spec
import proofs.«428950_j31078383354739_3_alg».proof.Proof.TripValue
import Idealize.ShloMosaic.Lib.ValueLayout
import Idealize.ShloMosaic.PureOps.Ideal.Laws

noncomputable section

namespace Cert.KernelIdeal.Trip

open Cert.KernelIdeal Cert.KernelIdeal.Gen Idealize.ShloMosaic Idealize.ShloMosaic.ValueIdx
open scoped BigOperators

/-! ## Two layout reads the payloads need -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The loaded slabs without their unit axis -/

theorem pay2_apply (v4 : Vec Ideal S1x900x4 .f32) (n : Fin 900) (k : Fin 4) :
    k0_pay2 (F := Ideal) v4 (ix2 n k) = v4 (ix3 0 n k) := by
  unfold k0_pay2
  exact shapeCast_1ab_ab_apply v4 _ n k

theorem pay3_apply (v7 : Vec Ideal S1x4x300 .f32) (k : Fin 4) (q : Fin 300) :
    k0_pay3 (F := Ideal) v7 (ix2 k q) = v7 (ix3 0 k q) := by
  unfold k0_pay3
  exact shapeCast_1ab_ab_apply v7 _ k q

/-- Column `c` of the predicted boxes, at row `n`. -/
theorem col_apply (v4 : Vec Ideal S1x900x4 .f32) (c : Fin 4) (h : S900x4.Slices ![0, c.val] S900x1) (n : Fin 900) :
    extractStridedSlice S900x1 ![0, c.val] (k0_pay2 (F := Ideal) v4) h (ix2 n (0 : Fin 1)) = v4 (ix3 0 n c) :=
  (slice2_axis1_apply c.val (k0_pay2 (F := Ideal) v4) h n (0 : Fin 1) c rfl).trans (pay2_apply v4 n c)

/-- Row `r` of the transposed ground-truth boxes, at column `q`. -/
theorem row_apply (v7 : Vec Ideal S1x4x300 .f32) (r : Fin 4) (h : S4x300.Slices ![r.val, 0] S1x300) (q : Fin 300) :
    extractStridedSlice S1x300 ![r.val, 0] (k0_pay3 (F := Ideal) v7) h (ix2 (0 : Fin 1) q) = v7 (ix3 0 r q) :=
  (slice2_axis0_apply r.val (k0_pay3 (F := Ideal) v7) h (0 : Fin 1) q r rfl).trans (pay3_apply v7 r q)

theorem pay4_apply (v4 : Vec Ideal S1x900x4 .f32) (n : Fin 900) :
    k0_pay4 (F := Ideal) v4 (ix2 n (0 : Fin 1)) = BoxCost.lo (v4 (ix3 0 n 0)) (v4 (ix3 0 n 2)) := by
  unfold k0_pay4 BoxCost.lo
  exact congrArg₂ (fun a b : EReal => a - BoxCost.half * b) (col_apply v4 0 _ n) (col_apply v4 2 _ n)

theorem pay5_apply (v4 : Vec Ideal S1x900x4 .f32) (n : Fin 900) :
    k0_pay5 (F := Ideal) v4 (ix2 n (0 : Fin 1)) = BoxCost.lo (v4 (ix3 0 n 1)) (v4 (ix3 0 n 3)) := by
  unfold k0_pay5 BoxCost.lo
  exact congrArg₂ (fun a b : EReal => a - BoxCost.half * b) (col_apply v4 1 _ n) (col_apply v4 3 _ n)

theorem pay6_apply (v4 : Vec Ideal S1x900x4 .f32) (n : Fin 900) :
    k0_pay6 (F := Ideal) v4 (ix2 n (0 : Fin 1)) = BoxCost.hi (v4 (ix3 0 n 0)) (v4 (ix3 0 n 2)) := by
  unfold k0_pay6 BoxCost.hi
  exact congrArg₂ (fun a b : EReal => a + BoxCost.half * b) (col_apply v4 0 _ n) (col_apply v4 2 _ n)

theorem pay7_apply (v4 : Vec Ideal S1x900x4 .f32) (n : Fin 900) :
    k0_pay7 (F := Ideal) v4 (ix2 n (0 : Fin 1)) = BoxCost.hi (v4 (ix3 0 n 1)) (v4 (ix3 0 n 3)) := by
  unfold k0_pay7 BoxCost.hi
  exact congrArg₂ (fun a b : EReal => a + BoxCost.half * b) (col_apply v4 1 _ n) (col_apply v4 3 _ n)

theorem pay8_apply (v7 : Vec Ideal S1x4x300 .f32) (q : Fin 300) :
    k0_pay8 (F := Ideal) v7 (ix2 (0 : Fin 1) q) = BoxCost.lo (v7 (ix3 0 0 q)) (v7 (ix3 0 2 q)) := by
  unfold k0_pay8 BoxCost.lo
  exact congrArg₂ (fun a b : EReal => a - BoxCost.half * b) (row_apply v7 0 _ q) (row_apply v7 2 _ q)

theorem pay9_apply (v7 : Vec Ideal S1x4x300 .f32) (q : Fin 300) :
    k0_pay9 (F := Ideal) v7 (ix2 (0 : Fin 1) q) = BoxCost.lo (v7 (ix3 0 1 q)) (v7 (ix3 0 3 q)) := by
  unfold k0_pay9 BoxCost.lo
  exact congrArg₂ (fun a b : EReal => a - BoxCost.half * b) (row_apply v7 1 _ q) (row_apply v7 3 _ q)

theorem pay10_apply (v7 : Vec Ideal S1x4x300 .f32) (q : Fin 300) :
    k0_pay10 (F := Ideal) v7 (ix2 (0 : Fin 1) q) = BoxCost.hi (v7 (ix3 0 0 q)) (v7 (ix3 0 2 q)) := by
  unfold k0_pay10 BoxCost.hi
  exact congrArg₂ (fun a b : EReal => a + BoxCost.half * b) (row_apply v7 0 _ q) (row_apply v7 2 _ q)

theorem pay11_apply (v7 : Vec Ideal S1x4x300 .f32) (q : Fin 300) :
    k0_pay11 (F := Ideal) v7 (ix2 (0 : Fin 1) q) = v7 (ix3 0 1 q) := by
  unfold k0_pay11
  exact row_apply v7 1 _ q

theorem pay12_apply (v7 : Vec Ideal S1x4x300 .f32) (q : Fin 300) :
    k0_pay12 (F := Ideal) v7 (ix2 (0 : Fin 1) q) = v7 (ix3 0 3 q) := by
  unfold k0_pay12
  exact row_apply v7 3 _ q

/-- The upper y corner of the ground-truth box, from its centre row and its size row. -/
theorem pay13_apply (v7 : Vec Ideal S1x4x300 .f32) (q : Fin 300) :
    k0_pay13 (F := Ideal) (k0_pay11 v7) (k0_pay12 v7) (Scalar.ofBits .f32 0x3F000000#32) (ix2 (0 : Fin 1) q)
      = BoxCost.hi (v7 (ix3 0 1 q)) (v7 (ix3 0 3 q)) := by
  unfold k0_pay13 BoxCost.hi
  exact congrArg₂ (fun a b : EReal => a + BoxCost.half * b) (pay11_apply v7 q) (pay12_apply v7 q)

/-! ## Columns and rows spread over the [900, 300] slab -/

theorem colB (v : FVec Ideal S900x1 .f32) (h : S900x1.Broadcasts S900x300) (n : Fin 900) (q : Fin 300) :
    broadcastTo S900x300 v h (ix2 n q) = v (ix2 n (0 : Fin 1)) := broadcastTo_a1_ab_apply v h n q

theorem rowB (v : FVec Ideal S1x300 .f32) (h : S1x300.Broadcasts S900x300) (n : Fin 900) (q : Fin 300) :
    broadcastTo S900x300 v h (ix2 n q) = v (ix2 (0 : Fin 1) q) := broadcastTo_1b_ab_apply v h n q

theorem congr4 {α β : Type} (f : α → α → α → α → β) {a a' b b' c c' d d' : α}
    (ha : a = a') (hb : b = b') (hc : c = c') (hd : d = d') : f a b c d = f a' b' c' d' := by
  subst ha hb hc hd; rfl

/-- The overlap along an axis, from the two boxes' corner columns and rows. -/
theorem pay14_apply (v13 v23 : FVec Ideal S900x1 .f32) (v33 v43 : FVec Ideal S1x300 .f32) (n : Fin 900) (q : Fin 300) :
    k0_pay14 (F := Ideal) v13 v23 v33 v43 (ix2 n q)
      = BoxCost.overlap (v13 (ix2 n (0 : Fin 1))) (v23 (ix2 n (0 : Fin 1))) (v33 (ix2 (0 : Fin 1) q)) (v43 (ix2 (0 : Fin 1) q)) := by
  unfold k0_pay14 BoxCost.overlap
  exact congr4 (fun h₁ h₂ l₁ l₂ : EReal => max (min h₁ h₂ - max l₁ l₂ + BoxCost.one) BoxCost.zero)
    (colB v23 _ n q) (rowB v43 _ n q) (colB v13 _ n q) (rowB v33 _ n q)

/-- The hull along an axis. -/
theorem pay15_apply (v13 v23 : FVec Ideal S900x1 .f32) (v33 v43 : FVec Ideal S1x300 .f32) (n : Fin 900) (q : Fin 300) :
    k0_pay15 (F := Ideal) v13 v23 v33 v43 (ix2 n q)
      = BoxCost.hull (v13 (ix2 n (0 : Fin 1))) (v23 (ix2 n (0 : Fin 1))) (v33 (ix2 (0 : Fin 1) q)) (v43 (ix2 (0 : Fin 1) q)) := by
  unfold k0_pay15 BoxCost.hull
  exact congr4 (fun h₁ h₂ l₁ l₂ : EReal => max (max h₁ h₂ - min l₁ l₂ + BoxCost.one) BoxCost.zero)
    (colB v23 _ n q) (rowB v43 _ n q) (colB v13 _ n q) (rowB v33 _ n q)

theorem pay16_apply (v13 v23 : FVec Ideal S900x1 .f32) (j : S900x1.Idx) :
    k0_pay16 (F := Ideal) v13 v23 j = BoxCost.len (v13 j) (v23 j) := rfl

theorem pay17_apply (v33 v43 : FVec Ideal S1x300 .f32) (j : S1x300.Idx) :
    k0_pay17 (F := Ideal) v33 v43 j = BoxCost.len (v33 j) (v43 j) := rfl

theorem pay18_apply (v18 v28 : FVec Ideal S900x1 .f32) (v38 v44 v45 : FVec Ideal S1x300 .f32) (c : Ideal .f32)
    (n : Fin 900) (q : Fin 300) :
    k0_pay18 (F := Ideal) v18 v28 v38 v44 v45 c (ix2 n q)
      = BoxCost.overlap (v18 (ix2 n (0 : Fin 1))) (v28 (ix2 n (0 : Fin 1))) (v38 (ix2 (0 : Fin 1) q))
          (k0_pay13 v44 v45 c (ix2 (0 : Fin 1) q)) := by
  unfold k0_pay18 BoxCost.overlap
  exact congr4 (fun h₁ h₂ l₁ l₂ : EReal => max (min h₁ h₂ - max l₁ l₂ + BoxCost.one) BoxCost.zero)
    (colB v28 _ n q) (rowB (k0_pay13 v44 v45 c) _ n q) (colB v18 _ n q) (rowB v38 _ n q)

theorem pay19_apply (v28 : FVec Ideal S900x1 .f32) (v44 v45 : FVec Ideal S1x300 .f32) (c : Ideal .f32)
    (n : Fin 900) (q : Fin 300) :
    k0_pay19 (F := Ideal) v28 v44 v45 c (ix2 n q)
      = max (v28 (ix2 n (0 : Fin 1))) (k0_pay13 v44 v45 c (ix2 (0 : Fin 1) q)) := by
  unfold k0_pay19
  exact congrArg₂ (fun a b : EReal => max a b) (colB v28 _ n q) (rowB (k0_pay13 v44 v45 c) _ n q)

theorem pay20_apply (v18 : FVec Ideal S900x1 .f32) (n : Fin 900) (q : Fin 300) :
    k0_pay20 (F := Ideal) v18 (ix2 n q) = v18 (ix2 n (0 : Fin 1)) := by
  unfold k0_pay20
  exact colB v18 _ n q

theorem congr3 {α β : Type} (f : α → α → α → β) {a a' b b' c c' : α}
    (ha : a = a') (hb : b = b') (hc : c = c') : f a b c = f a' b' c' := by
  subst ha hb hc; rfl

/-- The box term of the cost, bg - iou, from the axis overlaps, hulls and lengths. -/
theorem pay21_apply (v18 v28 : FVec Ideal S900x1 .f32) (v38 v48 : FVec Ideal S1x300 .f32)
    (v59 v70 : FVec Ideal S900x300 .f32) (v75 : FVec Ideal S900x1 .f32) (v80 : FVec Ideal S1x300 .f32)
    (v91 v94 v95 : FVec Ideal S900x300 .f32) (n : Fin 900) (q : Fin 300) :
    k0_pay21 (F := Ideal) v18 v28 v38 v48 v59 v70 v75 v80 v91 v94 v95 (ix2 n q)
      = Ideal.div
          (v70 (ix2 n q) * max (v94 (ix2 n q) - min (v95 (ix2 n q)) (v38 (ix2 (0 : Fin 1) q)) + BoxCost.one) BoxCost.zero
            - (v75 (ix2 n (0 : Fin 1)) * BoxCost.len (v18 (ix2 n (0 : Fin 1))) (v28 (ix2 n (0 : Fin 1)))
                + v80 (ix2 (0 : Fin 1) q) * BoxCost.len (v38 (ix2 (0 : Fin 1) q)) (v48 (ix2 (0 : Fin 1) q))
                - v59 (ix2 n q) * v91 (ix2 n q)))
          (v70 (ix2 n q) * max (v94 (ix2 n q) - min (v95 (ix2 n q)) (v38 (ix2 (0 : Fin 1) q)) + BoxCost.one) BoxCost.zero)
        - Ideal.div (v59 (ix2 n q) * v91 (ix2 n q))
            (v75 (ix2 n (0 : Fin 1)) * BoxCost.len (v18 (ix2 n (0 : Fin 1))) (v28 (ix2 n (0 : Fin 1)))
              + v80 (ix2 (0 : Fin 1) q) * BoxCost.len (v38 (ix2 (0 : Fin 1) q)) (v48 (ix2 (0 : Fin 1) q))
              - v59 (ix2 n q) * v91 (ix2 n q)) := by
  unfold k0_pay21
  exact congr3 (fun x y z : EReal =>
      Ideal.div
          (v70 (ix2 n q) * max (v94 (ix2 n q) - min (v95 (ix2 n q)) x + BoxCost.one) BoxCost.zero
            - (y + z - v59 (ix2 n q) * v91 (ix2 n q)))
          (v70 (ix2 n q) * max (v94 (ix2 n q) - min (v95 (ix2 n q)) x + BoxCost.one) BoxCost.zero)
        - Ideal.div (v59 (ix2 n q) * v91 (ix2 n q)) (y + z - v59 (ix2 n q) * v91 (ix2 n q)))
    (rowB v38 _ n q) (colB _ _ n q) (rowB _ _ n q)

/-- A column of the predicted boxes and a row of the ground-truth boxes, cut and spread over the slab. -/
theorem colS (v5 : FVec Ideal S900x4 .f32) (c : Fin 4) (h : S900x4.Slices ![0, c.val] S900x1)
    (h' : S900x1.Broadcasts S900x300) (n : Fin 900) (q : Fin 300) :
    broadcastTo S900x300 (extractStridedSlice S900x1 ![0, c.val] v5 h) h' (ix2 n q) = v5 (ix2 n c) :=
  (colB _ h' n q).trans (slice2_axis1_apply c.val v5 h n (0 : Fin 1) c rfl)

theorem rowS (v8 : FVec Ideal S4x300 .f32) (r : Fin 4) (h : S4x300.Slices ![r.val, 0] S1x300)
    (h' : S1x300.Broadcasts S900x300) (n : Fin 900) (q : Fin 300) :
    broadcastTo S900x300 (extractStridedSlice S1x300 ![r.val, 0] v8 h) h' (ix2 n q) = v8 (ix2 r q) :=
  (rowB _ h' n q).trans (slice2_axis0_apply r.val v8 h (0 : Fin 1) q r rfl)

/-- The first three coordinate distances, summed left to right. -/
theorem pay22_apply (v5 : FVec Ideal S900x4 .f32) (v8 : FVec Ideal S4x300 .f32) (n : Fin 900) (q : Fin 300) :
    k0_pay22 (F := Ideal) v5 v8 (ix2 n q)
      = (BoxCost.dist (v5 (ix2 n 0)) (v8 (ix2 0 q)) + BoxCost.dist (v5 (ix2 n 1)) (v8 (ix2 1 q)))
          + BoxCost.dist (v5 (ix2 n 2)) (v8 (ix2 2 q)) := by
  unfold k0_pay22 BoxCost.dist
  exact congrArg₂ (fun a b : EReal => a + b)
    (congrArg₂ (fun a b : EReal => a + b)
      (congrArg₂ (fun a b : EReal => max (a - b) (-(a - b))) (colS v5 0 _ _ n q) (rowS v8 0 _ _ n q))
      (congrArg₂ (fun a b : EReal => max (a - b) (-(a - b))) (colS v5 1 _ _ n q) (rowS v8 1 _ _ n q)))
    (congrArg₂ (fun a b : EReal => max (a - b) (-(a - b))) (colS v5 2 _ _ n q) (rowS v8 2 _ _ n q))

theorem pay23_apply (v5 : FVec Ideal S900x4 .f32) (v8 : FVec Ideal S4x300 .f32) (n : Fin 900) (q : Fin 300) :
    k0_pay23 (F := Ideal) v5 v8 (ix2 n q) = v5 (ix2 n 3) - v8 (ix2 3 q) := by
  unfold k0_pay23
  exact congrArg₂ (fun a b : EReal => a - b) (colS v5 3 _ _ n q) (rowS v8 3 _ _ n q)

/-! ## The contraction of a score row with a one-hot column -/

/-- On the left operand's row axis the operand index is the output's row. -/
theorem lhs_axis0 (j : S900x300.Idx) (k : dot_S900x92_S92x300_S900x300_1_0_0_1_n_n.contr.Idx) :
    (dot_S900x92_S92x300_S900x300_1_0_0_1_n_n.lhsIdx j k 0).val = (j 0).val := rfl

/-- On the left operand's contracted axis it is the contraction position. -/
theorem lhs_axis1 (j : S900x300.Idx) (k : dot_S900x92_S92x300_S900x300_1_0_0_1_n_n.contr.Idx) :
    (dot_S900x92_S92x300_S900x300_1_0_0_1_n_n.lhsIdx j k 1).val = (k ⟨0, by decide⟩).val :=
  dot_S900x92_S92x300_S900x300_1_0_0_1_n_n.lhsIdx_val_of_single rfl j k

/-- On the right operand's contracted axis it is the contraction position. -/
theorem rhs_axis0 (j : S900x300.Idx) (k : dot_S900x92_S92x300_S900x300_1_0_0_1_n_n.contr.Idx) :
    (dot_S900x92_S92x300_S900x300_1_0_0_1_n_n.rhsIdx j k 0).val = (k ⟨0, by decide⟩).val :=
  dot_S900x92_S92x300_S900x300_1_0_0_1_n_n.rhsIdx_val_of_single rfl j k

/-- On the right operand's column axis the operand index is the output's column. -/
theorem rhs_axis1 (j : S900x300.Idx) (k : dot_S900x92_S92x300_S900x300_1_0_0_1_n_n.contr.Idx) :
    (dot_S900x92_S92x300_S900x300_1_0_0_1_n_n.rhsIdx j k 1).val = (j 1).val := rfl

theorem lhsIdx_entry (n : Fin 900) (q : Fin 300) (c : Fin 92) :
    dot_S900x92_S92x300_S900x300_1_0_0_1_n_n.lhsIdx (ix2 n q)
        ((contrEquiv1 dot_S900x92_S92x300_S900x300_1_0_0_1_n_n 92 rfl rfl).symm c) = ix2 n c := by
  funext ax; apply Fin.ext
  match ax with
  | ⟨0, _⟩ => exact lhs_axis0 _ _
  | ⟨1, _⟩ => exact (lhs_axis1 _ _).trans (contrEquiv1_symm_val dot_S900x92_S92x300_S900x300_1_0_0_1_n_n 92 rfl rfl c)

theorem rhsIdx_entry (n : Fin 900) (q : Fin 300) (c : Fin 92) :
    dot_S900x92_S92x300_S900x300_1_0_0_1_n_n.rhsIdx (ix2 n q)
        ((contrEquiv1 dot_S900x92_S92x300_S900x300_1_0_0_1_n_n 92 rfl rfl).symm c) = ix2 c q := by
  funext ax; apply Fin.ext
  match ax with
  | ⟨0, _⟩ => exact (rhs_axis0 _ _).trans (contrEquiv1_symm_val dot_S900x92_S92x300_S900x300_1_0_0_1_n_n 92 rfl rfl c)
  | ⟨1, _⟩ => exact rhs_axis1 _ _

/-- The product into the zero accumulator, at entry (n, q): the zero word plus the sum over the 92 contracted positions. -/
theorem matmul_entry (A : FVec Ideal S900x92 .bf16) (B : FVec Ideal S92x300 .bf16) (n : Fin 900) (q : Fin 300) :
    matmul dot_S900x92_S92x300_S900x300_1_0_0_1_n_n none A B (constant (F := Ideal) S900x300 .f32 0x00000000#32) (ix2 n q)
      = BoxCost.zero + ∑ k : Fin 92, A (ix2 n k) * B (ix2 k q) := by
  show BoxCost.zero + ∑ k : dot_S900x92_S92x300_S900x300_1_0_0_1_n_n.contr.Idx,
      A (dot_S900x92_S92x300_S900x300_1_0_0_1_n_n.lhsIdx (ix2 n q) k)
        * B (dot_S900x92_S92x300_S900x300_1_0_0_1_n_n.rhsIdx (ix2 n q) k) = _
  refine congrArg (fun s : EReal => BoxCost.zero + s) ?_
  rw [← Equiv.sum_comp (contrEquiv1 dot_S900x92_S92x300_S900x300_1_0_0_1_n_n 92 rfl rfl).symm]
  refine Finset.sum_congr rfl fun c _ => ?_
  rw [lhsIdx_entry, rhsIdx_entry]

/-- The score row without its unit axis. -/
theorem score_apply (v153 : Vec Ideal S1x900x92 .f32) (h : S1x900x92.ShapeCasts S900x92) (n : Fin 900) (k : Fin 92) :
    shapeCast S900x92 v153 h (ix2 n k) = v153 (ix3 0 n k) := shapeCast_1ab_ab_apply v153 h n k

/-- Entry (k, q) of the one-hot matrix: the label of column q compared with the row number k, widened and converted. -/
theorem hot_apply (v156 : Vec Ideal S1x1x300 .i32) (h : S1x1x300.ShapeCasts S1x300) (hb : S1x300.Broadcasts S92x300)
    (hi : S92x300.Iotas .tc 32 [0]) (k : Fin 92) (q : Fin 300) :
    (((IntOp.cmpi .eq (broadcastTo S92x300 (shapeCast S1x300 v156 h) hb (ix2 k q)) (iota .tc S92x300 32 [0] hi (ix2 k q))).setWidth 32).toInt : ℝ)
      = (((IntOp.cmpi .eq (v156 (ix3 0 0 q)) (BitVec.ofNat 32 k.val)).setWidth 32).toInt : ℝ) :=
  congrArg₂ (fun X Y : BitVec 32 => (((IntOp.cmpi .eq X Y).setWidth 32).toInt : ℝ))
    ((broadcastTo_1b_ab_apply (shapeCast S1x300 v156 h) hb k q).trans (shapeCast_1ab_ab_apply v156 h (0 : Fin 1) q))
    (iota_single_apply .tc S92x300 32 0 hi (ix2 k q))

/-- The stored slab at (0, n, q), over whatever the three [900, 300] operands are. -/
theorem pay1_apply (v124 v144 v149 : FVec Ideal S900x300 .f32) (v153 : Vec Ideal S1x900x92 .f32)
    (v156 : Vec Ideal S1x1x300 .i32) (n : Fin 900) (q : Fin 300) :
    k0_pay1 (F := Ideal) v124 v144 v149 v153 v156 (ix3 0 n q)
      = ((v144 (ix2 n q) + max (v149 (ix2 n q)) (-(v149 (ix2 n q)))) + v124 (ix2 n q))
          - ((BoxCost.zero + ∑ k : Fin 92, v153 (ix3 0 n k) * BoxCost.hot (v156 (ix3 0 0 q)) k)
              + (BoxCost.zero + ∑ k : Fin 92, (v153 (ix3 0 n k) - v153 (ix3 0 n k)) * BoxCost.hot (v156 (ix3 0 0 q)) k)) := by
  unfold k0_pay1
  refine (shapeCast_ab_1ab_apply _ _ (0 : Fin 1) n q).trans ?_
  refine congrArg₂ (fun a b : EReal =>
      ((v144 (ix2 n q) + max (v149 (ix2 n q)) (-(v149 (ix2 n q)))) + v124 (ix2 n q)) - (a + b)) ?_ ?_
  · refine (matmul_entry _ _ n q).trans ?_
    refine congrArg (fun s : EReal => BoxCost.zero + s) (Finset.sum_congr rfl fun k _ => ?_)
    exact congrArg₂ (fun a b : EReal => a * b) (score_apply v153 _ n k)
      (congrArg (fun r : ℝ => (r : EReal)) (hot_apply v156 _ _ _ k q))
  · refine (matmul_entry _ _ n q).trans ?_
    refine congrArg (fun s : EReal => BoxCost.zero + s) (Finset.sum_congr rfl fun k _ => ?_)
    exact congrArg₂ (fun a b : EReal => a * b)
      (congrArg₂ (fun a b : EReal => a - b) (score_apply v153 _ n k) (score_apply v153 _ n k))
      (congrArg (fun r : ℝ => (r : EReal)) (hot_apply v156 _ _ _ k q))

/-! ## The trip's slab at an entry -/

/-- The box term over the trip's loads: bg - iou of predicted box n and ground-truth box q. -/
theorem boxTerm_apply (v4 : Vec Ideal S1x900x4 .f32) (v7 : Vec Ideal S1x4x300 .f32) (n : Fin 900) (q : Fin 300) :
    k0_pay21 (F := Ideal) (k0_pay5 v4) (k0_pay7 v4) (k0_pay9 v7)
        (k0_pay13 (k0_pay11 v7) (k0_pay12 v7) (Scalar.ofBits .f32 0x3F000000#32))
        (k0_pay14 (k0_pay4 v4) (k0_pay6 v4) (k0_pay8 v7) (k0_pay10 v7))
        (k0_pay15 (k0_pay4 v4) (k0_pay6 v4) (k0_pay8 v7) (k0_pay10 v7))
        (k0_pay16 (k0_pay4 v4) (k0_pay6 v4))
        (k0_pay17 (k0_pay8 v7) (k0_pay10 v7))
        (k0_pay18 (k0_pay5 v4) (k0_pay7 v4) (k0_pay9 v7) (k0_pay11 v7) (k0_pay12 v7) (Scalar.ofBits .f32 0x3F000000#32))
        (k0_pay19 (k0_pay7 v4) (k0_pay11 v7) (k0_pay12 v7) (Scalar.ofBits .f32 0x3F000000#32))
        (k0_pay20 (k0_pay5 v4)) (ix2 n q)
      = BoxCost.bgRatio (fun k => v4 (ix3 0 n k)) (fun k => v7 (ix3 0 k q))
          - BoxCost.iou (fun k => v4 (ix3 0 n k)) (fun k => v7 (ix3 0 k q)) := by
  rw [pay21_apply, pay14_apply, pay15_apply, pay16_apply, pay17_apply, pay18_apply, pay19_apply, pay20_apply, pay13_apply,
    pay4_apply, pay5_apply, pay6_apply, pay7_apply, pay8_apply, pay9_apply, pay10_apply]
  rfl

theorem tripValue_apply (v4 : Vec Ideal S1x900x4 .f32) (v7 : Vec Ideal S1x4x300 .f32) (v153 : Vec Ideal S1x900x92 .f32)
    (v156 : Vec Ideal S1x1x300 .i32) (n : Fin 900) (q : Fin 300) :
    tripValue (F := Ideal) v4 v7 v153 v156 (ValueIdx.ix3 0 n q)
      = Cert.BoxCost.costKernel (fun k => v4 (ValueIdx.ix3 0 n k)) (fun k => v7 (ValueIdx.ix3 0 k q))
          (fun k => v153 (ValueIdx.ix3 0 n k)) (v156 (ValueIdx.ix3 0 0 q)) := by
  unfold tripValue
  refine (pay1_apply _ _ _ v153 v156 n q).trans ?_
  rw [boxTerm_apply, pay22_apply, pay23_apply]
  simp only [pay2_apply, pay3_apply]
  rfl

end Cert.KernelIdeal.Trip

end
-- ==== Proof.KernelValue.lean ====
/-
  The kernel's result array, entry by entry, in the specification's terms (at the exact instance).

  At (b, n, q) the array holds the kernel's cost of predicted box (b, n), ground-truth box (b, q) — read through the
  transposed copy the host lines make —, the score row (b, n) and the label (b, q) clipped into [0, 91].
-/
import proofs.«428950_j31078383354739_3_alg».proof.Proof.KernelArray
import proofs.«428950_j31078383354739_3_alg».proof.Proof.KernelEntry
import Idealize.ShloMosaic.Lib.ValueLayout
import Idealize.ShloMosaic.Lib.Pipeline.Value

set_option maxRecDepth 16384

noncomputable section

namespace Cert.KernelIdeal.Array

open Cert.KernelIdeal Cert.KernelIdeal.Gen Cert.KernelIdeal.Trip Cert.KernelIdeal.Block
open Idealize.ShloMosaic Idealize.ShloMosaic.TcCoe Idealize.SL.Sem

variable (m : (ℓ : Loc nD τ sig) → Buf (Elt Ideal) ℓ)

/-- The transposed ground-truth boxes at (b, k, q) are the argument's at (b, q, k). -/
theorem gt_entry (c : Dev nD) (b : Fin 64) (k : Fin 4) (q : Fin 300) :
    V m c main_v0 (ValueIdx.ix3 b k q) = m ((c : Thread nD τ).loc main_arg2) (ValueIdx.ix3 b q k) := by
  rw [V_main_v0]
  exact ValueIdx.transpose_ix3_021_apply _ _ b k q

/-- The staged label at (b, 0, q) is the argument's at (b, q), clipped. -/
theorem label_entry (c : Dev nD) (b : Fin 64) (q : Fin 300) :
    V m c main_v2 (ValueIdx.ix3 b (0 : Fin 1) q)
      = Cert.BoxCost.clipLabel (m ((c : Thread nD τ).loc main_arg3) (ValueIdx.ix2 b q)) := by
  rw [V_main_v2]
  refine (broadcastInDim_apply _ bcast_S64x300_S64x1x300_0_2 _ (ValueIdx.ix3 b (0 : Fin 1) q) (ValueIdx.ix2 b q)
    (fun a => match a with
      | ⟨0, _⟩ => by show b.val = if (64 : Nat) = 1 then 0 else b.val; rw [if_neg (by decide)]
      | ⟨1, _⟩ => by show q.val = if (300 : Nat) = 1 then 0 else q.val; rw [if_neg (by decide)])).trans ?_
  rfl

/-- THE KERNEL'S ENTRY. -/
theorem kernel_entry (c : Dev nD) (b : Fin 64) (n : Fin 900) (q : Fin 300) :
    (dats m 0 c).arrAt 4 cfg0.N (ValueIdx.ix3 b n q)
      = Cert.BoxCost.costKernel (fun k => m ((c : Thread nD τ).loc main_arg0) (ValueIdx.ix3 b n k))
          (fun k => m ((c : Thread nD τ).loc main_arg2) (ValueIdx.ix3 b q k))
          (fun k => m ((c : Thread nD τ).loc main_arg1) (ValueIdx.ix3 b n k))
          (Cert.BoxCost.clipLabel (m ((c : Thread nD τ).loc main_arg3) (ValueIdx.ix2 b q))) := by
  rw [final]
  show tripValue (F := Ideal) (rows0 (V m c main_arg0) b) (rows1 (V m c main_v0) b) (rows2 (V m c main_arg1) b)
    (rows3 (V m c main_v2) b) (ValueIdx.ix3 (0 : Fin 1) n q) = _
  rw [tripValue_apply]
  have h0 : (fun k : Fin 4 => rows0 (V m c main_arg0) b (ValueIdx.ix3 (0 : Fin 1) n k))
      = fun k => m ((c : Thread nD τ).loc main_arg0) (ValueIdx.ix3 b n k) := by
    funext k
    show V m c main_arg0 (ValueIdx.ix3 b n k) = _
    rw [V_main_arg0]
  have h1 : (fun k : Fin 4 => rows1 (V m c main_v0) b (ValueIdx.ix3 (0 : Fin 1) k q))
      = fun k => m ((c : Thread nD τ).loc main_arg2) (ValueIdx.ix3 b q k) := by
    funext k
    exact gt_entry m c b k q
  have h2 : (fun k : Fin 92 => rows2 (V m c main_arg1) b (ValueIdx.ix3 (0 : Fin 1) n k))
      = fun k => m ((c : Thread nD τ).loc main_arg1) (ValueIdx.ix3 b n k) := by
    funext k
    show V m c main_arg1 (ValueIdx.ix3 b n k) = _
    rw [V_main_arg1]
  have h3 : rows3 (V m c main_v2) b (ValueIdx.ix3 (0 : Fin 1) (0 : Fin 1) q)
      = Cert.BoxCost.clipLabel (m ((c : Thread nD τ).loc main_arg3) (ValueIdx.ix2 b q)) :=
    label_entry m c b q
  rw [h0, h1, h2, h3]

end Cert.KernelIdeal.Array

end
-- ==== Proof.RefEntry.lean ====
/-
  The reference program's result at one entry (b, n, q), read through its operations one layer at a time: the boxes'
  corners, the clipped lengths along each axis, the areas, the union, the two ratios, the summed coordinate distances and the
  gathered class score. Each layer is the previous one read at an index; an index a layout operation computes is
  identified with its coordinates, coordinate by coordinate.
-/
import proofs.«428950_j31078383354739_3_alg».proof.Proof.Spec
import proofs.«428950_j31078383354739_3_alg».proof.Proof.Gen.ReferenceIdeal.Read
import Idealize.ShloMosaic.Lib.ValueIdx
import Idealize.ShloMosaic.PureOps.Ideal

noncomputable section

namespace Cert.ReferenceIdeal.Entry

open Cert.ReferenceIdeal Cert.ReferenceIdeal.Gen Cert.ReferenceIdeal.Read Idealize.ShloMosaic Idealize.ShloMosaic.ValueIdx
open scoped BigOperators

/-- The reference's gather, read at the entry (b, n, q): batch axis 0 is carried over, axis 1 is the slice's offset, and on the
    collapsed axis 2 the one start index, read at (b, q, 0) as a signed integer, is clamped into [0, 91]. -/
theorem gather_entry {α : Type} (x : S64x900x92.Idx → α) (idx : IVec S64x300x1 32) (b : Fin 64) (n : Fin 900) (q : Fin 300) :
    Host.gather gather_S64x900x92_S64x300x1_S64x900x300_1_2_0_0_2_2_19001 x idx (ix3 b n q)
      = x (ix3 b n ⟨min (idx (ix3 b q (0 : Fin 1))).toInt.toNat 91, Nat.lt_succ_of_le (Nat.min_le_right _ _)⟩) := by
  -- axis 0: a batching axis, neither in the start index map nor an offset axis
  have h0 : GatherDims.start gather_S64x900x92_S64x300x1_S64x900x300_1_2_0_0_2_2_19001 (ix3 b n q) idx (⟨0, by decide⟩ : Fin 3)
      + GatherDims.batchCoord gather_S64x900x92_S64x300x1_S64x900x300_1_2_0_0_2_2_19001 (ix3 b n q) (⟨0, by decide⟩ : Fin 3)
      + GatherDims.offCoord gather_S64x900x92_S64x300x1_S64x900x300_1_2_0_0_2_2_19001 (ix3 b n q) (⟨0, by decide⟩ : Fin 3) = b.val := by
    rw [GatherDims.start_batching _ _ _ _ (by decide), GatherDims.offCoord_eq_zero _ _ _ (by decide)]
    simp only [Nat.zero_add, Nat.add_zero]
    rfl
  -- axis 1: the offset axis, whole (slice size 900), start 0
  have h1 : GatherDims.start gather_S64x900x92_S64x300x1_S64x900x300_1_2_0_0_2_2_19001 (ix3 b n q) idx (⟨1, by decide⟩ : Fin 3)
      + GatherDims.batchCoord gather_S64x900x92_S64x300x1_S64x900x300_1_2_0_0_2_2_19001 (ix3 b n q) (⟨1, by decide⟩ : Fin 3)
      + GatherDims.offCoord gather_S64x900x92_S64x300x1_S64x900x300_1_2_0_0_2_2_19001 (ix3 b n q) (⟨1, by decide⟩ : Fin 3) = n.val := by
    have hs : GatherDims.start gather_S64x900x92_S64x300x1_S64x900x300_1_2_0_0_2_2_19001 (ix3 b n q) idx (⟨1, by decide⟩ : Fin 3) = 0 := by
      unfold GatherDims.start; rw [dif_neg (by decide)]
    rw [hs, GatherDims.batchCoord_eq_zero _ _ _ (by decide)]
    simp only [Nat.zero_add, Nat.add_zero]
    rfl
  -- axis 2: the collapsed axis the start index names
  have h2 : GatherDims.start gather_S64x900x92_S64x300x1_S64x900x300_1_2_0_0_2_2_19001 (ix3 b n q) idx (⟨2, by decide⟩ : Fin 3)
      + GatherDims.batchCoord gather_S64x900x92_S64x300x1_S64x900x300_1_2_0_0_2_2_19001 (ix3 b n q) (⟨2, by decide⟩ : Fin 3)
      + GatherDims.offCoord gather_S64x900x92_S64x300x1_S64x900x300_1_2_0_0_2_2_19001 (ix3 b n q) (⟨2, by decide⟩ : Fin 3)
        = min (idx (ix3 b q (0 : Fin 1))).toInt.toNat 91 := by
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S64x900x92_S64x300x1_S64x900x300_1_2_0_0_2_2_19001 (ix3 b n q)
        ⟨List.idxOf (⟨2, by decide⟩ : Fin 3) gather_S64x900x92_S64x300x1_S64x900x300_1_2_0_0_2_2_19001.startIndexMap,
          List.idxOf_lt_length_iff.2 (by decide)⟩ = ix3 b q (0 : Fin 1) := by
      funext c; refine Fin.ext ?_
      match c with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact h0
  | ⟨1, _⟩ => exact h1
  | ⟨2, _⟩ => exact h2

/-- Two indices of one shape are equal when their coordinates are: ranks 2, 3 and 4. -/
local macro "coords2" : tactic =>
  `(tactic| (funext a; refine Fin.ext ?_; match a with | ⟨0, _⟩ => rfl | ⟨1, _⟩ => rfl))
local macro "coords3" : tactic =>
  `(tactic| (funext a; refine Fin.ext ?_; match a with | ⟨0, _⟩ => rfl | ⟨1, _⟩ => rfl | ⟨2, _⟩ => rfl))
local macro "coords4" : tactic =>
  `(tactic| (funext a; refine Fin.ext ?_; match a with | ⟨0, _⟩ => rfl | ⟨1, _⟩ => rfl | ⟨2, _⟩ => rfl | ⟨3, _⟩ => rfl))

/-- Along axis `c` (0: x, 1: y) a box keeps its centre at coordinate `c` and its size at coordinate `2 + c`. -/
abbrev ctr (c : Fin 2) : Fin 4 := ⟨c.val, Nat.lt_of_lt_of_le c.isLt (by decide)⟩
abbrev sz (c : Fin 2) : Fin 4 := ⟨2 + c.val, by have := c.isLt; omega⟩

section Layers

variable (x0 : (⟨S64x900x4, .f32⟩ : BufTy).Contents (Elt Ideal)) (x2 : (⟨S64x300x4, .f32⟩ : BufTy).Contents (Elt Ideal))

/-! ### The corners -/

theorem loP_at (i : S64x900x2.Idx) :
    val_main_v11 (F := Ideal) x0 i
      = BoxCost.lo (x0 (ix3 (i 0 : Fin 64) (i 1 : Fin 900) (ctr (i 2)))) (x0 (ix3 (i 0 : Fin 64) (i 1 : Fin 900) (sz (i 2)))) := by
  have e7 : idx_main_v7 i = ix3 (i 0 : Fin 64) (i 1 : Fin 900) (ctr (i 2)) := by coords3
  have e8 : idx_main_v8 i = ix3 (i 0 : Fin 64) (i 1 : Fin 900) (sz (i 2)) := by coords3
  rw [val_main_v11_apply, val_main_v7_apply, val_main_v10_apply, val_main_v9_apply, val_main_cst_0_apply, val_main_v8_apply, e7, e8]
  rfl

theorem hiP_at (i : S64x900x2.Idx) :
    val_main_v16 (F := Ideal) x0 i
      = BoxCost.hi (x0 (ix3 (i 0 : Fin 64) (i 1 : Fin 900) (ctr (i 2)))) (x0 (ix3 (i 0 : Fin 64) (i 1 : Fin 900) (sz (i 2)))) := by
  have e12 : idx_main_v12 i = ix3 (i 0 : Fin 64) (i 1 : Fin 900) (ctr (i 2)) := by coords3
  have e13 : idx_main_v13 i = ix3 (i 0 : Fin 64) (i 1 : Fin 900) (sz (i 2)) := by coords3
  rw [val_main_v16_apply, val_main_v12_apply, val_main_v15_apply, val_main_v14_apply, val_main_cst_1_apply, val_main_v13_apply, e12, e13]
  rfl

theorem loG_at (i : S64x300x2.Idx) :
    val_main_v21 (F := Ideal) x2 i
      = BoxCost.lo (x2 (ix3 (i 0 : Fin 64) (i 1 : Fin 300) (ctr (i 2)))) (x2 (ix3 (i 0 : Fin 64) (i 1 : Fin 300) (sz (i 2)))) := by
  have e17 : idx_main_v17 i = ix3 (i 0 : Fin 64) (i 1 : Fin 300) (ctr (i 2)) := by coords3
  have e18 : idx_main_v18 i = ix3 (i 0 : Fin 64) (i 1 : Fin 300) (sz (i 2)) := by coords3
  rw [val_main_v21_apply, val_main_v17_apply, val_main_v20_apply, val_main_v19_apply, val_main_cst_2_apply, val_main_v18_apply, e17, e18]
  rfl

theorem hiG_at (i : S64x300x2.Idx) :
    val_main_v26 (F := Ideal) x2 i
      = BoxCost.hi (x2 (ix3 (i 0 : Fin 64) (i 1 : Fin 300) (ctr (i 2)))) (x2 (ix3 (i 0 : Fin 64) (i 1 : Fin 300) (sz (i 2)))) := by
  have e22 : idx_main_v22 i = ix3 (i 0 : Fin 64) (i 1 : Fin 300) (ctr (i 2)) := by coords3
  have e23 : idx_main_v23 i = ix3 (i 0 : Fin 64) (i 1 : Fin 300) (sz (i 2)) := by coords3
  rw [val_main_v26_apply, val_main_v22_apply, val_main_v25_apply, val_main_v24_apply, val_main_cst_3_apply, val_main_v23_apply, e22, e23]
  rfl

/-! ### The clipped lengths along one axis -/

theorem overlap_at (i : S64x900x300x2.Idx) :
    val_main_v41 (F := Ideal) x0 x2 i
      = BoxCost.overlap (val_main_v11 (F := Ideal) x0 (ix3 (i 0 : Fin 64) (i 1 : Fin 900) (i 3 : Fin 2)))
          (val_main_v16 (F := Ideal) x0 (ix3 (i 0 : Fin 64) (i 1 : Fin 900) (i 3 : Fin 2)))
          (val_main_v21 (F := Ideal) x2 (ix3 (i 0 : Fin 64) (i 2 : Fin 300) (i 3 : Fin 2)))
          (val_main_v26 (F := Ideal) x2 (ix3 (i 0 : Fin 64) (i 2 : Fin 300) (i 3 : Fin 2))) := by
  have e1 : idx_main_v28 (idx_main_v31 i) = ix3 (i 0 : Fin 64) (i 1 : Fin 900) (i 3 : Fin 2) := by coords3
  have e2 : idx_main_v30 (idx_main_v32 i) = ix3 (i 0 : Fin 64) (i 2 : Fin 300) (i 3 : Fin 2) := by coords3
  have e3 : idx_main_v27 (idx_main_v34 i) = ix3 (i 0 : Fin 64) (i 1 : Fin 900) (i 3 : Fin 2) := by coords3
  have e4 : idx_main_v29 (idx_main_v35 i) = ix3 (i 0 : Fin 64) (i 2 : Fin 300) (i 3 : Fin 2) := by coords3
  rw [val_main_v41_apply, val_main_v39_apply, val_main_v37_apply, val_main_v33_apply, val_main_v31_apply, val_main_v28_apply,
    val_main_v32_apply, val_main_v30_apply, val_main_v36_apply, val_main_v34_apply, val_main_v27_apply, val_main_v35_apply,
    val_main_v29_apply, val_main_v38_apply, val_main_cst_4_apply, val_main_v40_apply, val_main_cst_5_apply, e1, e2, e3, e4]
  rfl

theorem hull_at (i : S64x900x300x2.Idx) :
    val_main_v84 (F := Ideal) x0 x2 i
      = BoxCost.hull (val_main_v11 (F := Ideal) x0 (ix3 (i 0 : Fin 64) (i 1 : Fin 900) (i 3 : Fin 2)))
          (val_main_v16 (F := Ideal) x0 (ix3 (i 0 : Fin 64) (i 1 : Fin 900) (i 3 : Fin 2)))
          (val_main_v21 (F := Ideal) x2 (ix3 (i 0 : Fin 64) (i 2 : Fin 300) (i 3 : Fin 2)))
          (val_main_v26 (F := Ideal) x2 (ix3 (i 0 : Fin 64) (i 2 : Fin 300) (i 3 : Fin 2))) := by
  have e1 : idx_main_v28 (idx_main_v74 i) = ix3 (i 0 : Fin 64) (i 1 : Fin 900) (i 3 : Fin 2) := by coords3
  have e2 : idx_main_v30 (idx_main_v75 i) = ix3 (i 0 : Fin 64) (i 2 : Fin 300) (i 3 : Fin 2) := by coords3
  have e3 : idx_main_v27 (idx_main_v77 i) = ix3 (i 0 : Fin 64) (i 1 : Fin 900) (i 3 : Fin 2) := by coords3
  have e4 : idx_main_v29 (idx_main_v78 i) = ix3 (i 0 : Fin 64) (i 2 : Fin 300) (i 3 : Fin 2) := by coords3
  rw [val_main_v84_apply, val_main_v82_apply, val_main_v80_apply, val_main_v76_apply, val_main_v74_apply, val_main_v28_apply,
    val_main_v75_apply, val_main_v30_apply, val_main_v79_apply, val_main_v77_apply, val_main_v27_apply, val_main_v78_apply,
    val_main_v29_apply, val_main_v81_apply, val_main_cst_10_apply, val_main_v83_apply, val_main_cst_11_apply, e1, e2, e3, e4]
  rfl

theorem lenP_at (i : S64x900x2.Idx) :
    val_main_v51 (F := Ideal) x0 i = BoxCost.len (val_main_v11 (F := Ideal) x0 i) (val_main_v16 (F := Ideal) x0 i) := by
  rw [val_main_v51_apply, val_main_v49_apply, val_main_v47_apply, val_main_v48_apply, val_main_cst_6_apply, val_main_v50_apply,
    val_main_cst_7_apply]
  rfl

theorem lenG_at (i : S64x300x2.Idx) :
    val_main_v61 (F := Ideal) x2 i = BoxCost.len (val_main_v21 (F := Ideal) x2 i) (val_main_v26 (F := Ideal) x2 i) := by
  rw [val_main_v61_apply, val_main_v59_apply, val_main_v57_apply, val_main_v58_apply, val_main_cst_8_apply, val_main_v60_apply,
    val_main_cst_9_apply]
  rfl

/-! ### The areas, the union and the two ratios at the entry (b, n, q) -/

variable (b : Fin 64) (n : Fin 900) (q : Fin 300)

/-- The reshape that drops a trailing axis of size one reads (b, n, q) at (b, n, q, 0). -/
theorem drop4 : idx_main_v43 (ix3 b n q) = ix4 b n q (0 : Fin 1) := by
  funext a; refine Fin.ext ?_
  have hb := b.isLt; have hn := n.isLt; have hq := q.isLt
  match a with
  | ⟨0, _⟩ => show ((b.val * 900 + n.val) * 300 + q.val) / 270000 = b.val; omega
  | ⟨1, _⟩ => show ((b.val * 900 + n.val) * 300 + q.val) / 300 % 900 = n.val; omega
  | ⟨2, _⟩ => show ((b.val * 900 + n.val) * 300 + q.val) / 1 % 300 = q.val; omega
  | ⟨3, _⟩ => rfl

theorem drop3P : idx_main_v53 (ix2 b n) = ix3 b n (0 : Fin 1) := by
  funext a; refine Fin.ext ?_
  have hb := b.isLt; have hn := n.isLt
  match a with
  | ⟨0, _⟩ => show (b.val * 900 + n.val) / 900 = b.val; omega
  | ⟨1, _⟩ => show (b.val * 900 + n.val) / 1 % 900 = n.val; omega
  | ⟨2, _⟩ => rfl

theorem drop3G : idx_main_v63 (ix2 b q) = ix3 b q (0 : Fin 1) := by
  funext a; refine Fin.ext ?_
  have hb := b.isLt; have hq := q.isLt
  match a with
  | ⟨0, _⟩ => show (b.val * 300 + q.val) / 300 = b.val; omega
  | ⟨1, _⟩ => show (b.val * 300 + q.val) / 1 % 300 = q.val; omega
  | ⟨2, _⟩ => rfl

theorem inter_at :
    val_main_v46 (F := Ideal) x0 x2 (ix3 b n q) = BoxCost.inter (fun k => x0 (ix3 b n k)) (fun k => x2 (ix3 b q k)) := by
  have d45 : idx_main_v45 (ix3 b n q) = ix4 b n q (0 : Fin 1) := drop4 b n q
  have e42 : idx_main_v42 (ix4 b n q (0 : Fin 1)) = ix4 b n q (0 : Fin 2) := by coords4
  have e44 : idx_main_v44 (ix4 b n q (0 : Fin 1)) = ix4 b n q (1 : Fin 2) := by coords4
  rw [val_main_v46_apply, val_main_v43_apply, val_main_v42_apply, val_main_v45_apply, val_main_v44_apply, drop4, d45, e42, e44]
  simp only [overlap_at, loP_at, hiP_at, loG_at, hiG_at]
  rfl

theorem bound_at :
    val_main_v89 (F := Ideal) x0 x2 (ix3 b n q) = BoxCost.bound (fun k => x0 (ix3 b n k)) (fun k => x2 (ix3 b q k)) := by
  have d86 : idx_main_v86 (ix3 b n q) = ix4 b n q (0 : Fin 1) := drop4 b n q
  have d88 : idx_main_v88 (ix3 b n q) = ix4 b n q (0 : Fin 1) := drop4 b n q
  have e85 : idx_main_v85 (ix4 b n q (0 : Fin 1)) = ix4 b n q (0 : Fin 2) := by coords4
  have e87 : idx_main_v87 (ix4 b n q (0 : Fin 1)) = ix4 b n q (1 : Fin 2) := by coords4
  rw [val_main_v89_apply, val_main_v86_apply, val_main_v85_apply, val_main_v88_apply, val_main_v87_apply, d86, d88, e85, e87]
  simp only [hull_at, loP_at, hiP_at, loG_at, hiG_at]
  rfl

theorem areaP_at : val_main_v56 (F := Ideal) x0 (ix2 b n) = BoxCost.area (fun k => x0 (ix3 b n k)) := by
  have d55 : idx_main_v55 (ix2 b n) = ix3 b n (0 : Fin 1) := drop3P b n
  have e52 : idx_main_v52 (ix3 b n (0 : Fin 1)) = ix3 b n (0 : Fin 2) := by coords3
  have e54 : idx_main_v54 (ix3 b n (0 : Fin 1)) = ix3 b n (1 : Fin 2) := by coords3
  rw [val_main_v56_apply, val_main_v53_apply, val_main_v52_apply, val_main_v55_apply, val_main_v54_apply, drop3P, d55, e52, e54]
  simp only [lenP_at, loP_at, hiP_at]
  rfl

theorem areaG_at : val_main_v66 (F := Ideal) x2 (ix2 b q) = BoxCost.area (fun k => x2 (ix3 b q k)) := by
  have d65 : idx_main_v65 (ix2 b q) = ix3 b q (0 : Fin 1) := drop3G b q
  have e62 : idx_main_v62 (ix3 b q (0 : Fin 1)) = ix3 b q (0 : Fin 2) := by coords3
  have e64 : idx_main_v64 (ix3 b q (0 : Fin 1)) = ix3 b q (1 : Fin 2) := by coords3
  rw [val_main_v66_apply, val_main_v63_apply, val_main_v62_apply, val_main_v65_apply, val_main_v64_apply, drop3G, d65, e62, e64]
  simp only [lenG_at, loG_at, hiG_at]
  rfl

theorem union_at :
    val_main_v72 (F := Ideal) x0 x2 (ix3 b n q) = BoxCost.union (fun k => x0 (ix3 b n k)) (fun k => x2 (ix3 b q k)) := by
  have e1 : idx_main_v67 (idx_main_v69 (ix3 b n q)) = ix2 b n := by coords2
  have e2 : idx_main_v68 (idx_main_v70 (ix3 b n q)) = ix2 b q := by coords2
  rw [val_main_v72_apply, val_main_v71_apply, val_main_v69_apply, val_main_v67_apply, val_main_v70_apply, val_main_v68_apply, e1, e2,
    areaP_at, areaG_at, inter_at]
  rfl

theorem iou_at :
    val_main_v73 (F := Ideal) x0 x2 (ix3 b n q) = BoxCost.iou (fun k => x0 (ix3 b n k)) (fun k => x2 (ix3 b q k)) := by
  rw [val_main_v73_apply, inter_at, union_at]
  rfl

theorem bgRatio_at :
    val_main_v91 (F := Ideal) x0 x2 (ix3 b n q) = BoxCost.bgRatio (fun k => x0 (ix3 b n k)) (fun k => x2 (ix3 b q k)) := by
  rw [val_main_v91_apply, val_main_v90_apply, bound_at, union_at]
  rfl

/-! ### The summed coordinate distances -/

theorem l1_at :
    val_main_v6 (F := Ideal) x0 x2 (ix3 b n q)
      = BoxCost.zero + ∑ k : Fin 4, BoxCost.dist (x0 (ix3 b n k)) (x2 (ix3 b q k)) := by
  rw [val_main_v6_apply, val_main_cst_apply]
  refine congrArg (_ + ·) (Finset.sum_congr rfl fun k _ => ?_)
  have e1 : idx_main_v0 (idx_main_v2 (idx_main_v6 (ix3 b n q) k)) = ix3 b n k := by coords3
  have e2 : idx_main_v1 (idx_main_v3 (idx_main_v6 (ix3 b n q) k)) = ix3 b q k := by coords3
  rw [val_main_v5_apply, val_main_v4_apply, val_main_v2_apply, val_main_v0_apply, val_main_v3_apply, val_main_v1_apply, e1, e2]
  rfl

end Layers

/-! ### The gathered class score -/

/-- The label is wrapped by 92 when negative, and the gather clamps the wrapped label, read signed, into [0, 91]. -/
theorem score_at (x1 : (⟨S64x900x92, .f32⟩ : BufTy).Contents (Elt Ideal)) (x3 : (⟨S64x300, .i32⟩ : BufTy).Contents (Elt Ideal))
    (b : Fin 64) (n : Fin 900) (q : Fin 300) :
    val_main_v100 (F := Ideal) x1 x3 (ix3 b n q) = x1 (ix3 b n (BoxCost.gatherCol (x3 (ix2 b q)))) := by
  have e99 : idx_main_v99 (ix3 b q (0 : Fin 1)) = ix2 b q := by coords2
  unfold val_main_v100
  rw [gather_entry, val_main_v99_apply, val_main_v98_apply, val_main_v95_apply, val_main_v94_apply, val_main_c_apply,
    val_main_v97_apply, val_main_v96_apply, val_main_c_12_apply, e99]
  rfl

/-! ### The entry -/

theorem ref_entry (x0 : (⟨S64x900x4, .f32⟩ : BufTy).Contents (Elt Ideal)) (x1 : (⟨S64x900x92, .f32⟩ : BufTy).Contents (Elt Ideal)) (x2 : (⟨S64x300x4, .f32⟩ : BufTy).Contents (Elt Ideal)) (x3 : (⟨S64x300, .i32⟩ : BufTy).Contents (Elt Ideal)) (b : Fin 64) (n : Fin 900) (q : Fin 300) :
    Cert.ReferenceIdeal.Read.val_main_v109 (F := Ideal) x0 x1 x2 x3 (ValueIdx.ix3 b n q)
      = Cert.BoxCost.costReference (fun k => x0 (ValueIdx.ix3 b n k)) (fun k => x2 (ValueIdx.ix3 b q k)) (x1 (ValueIdx.ix3 b n (Cert.BoxCost.gatherCol (x3 (ValueIdx.ix2 b q))))) := by
  rw [val_main_v109_apply, val_main_v106_apply, val_main_v103_apply, val_main_v102_apply, val_main_cst_13_apply,
    val_main_v105_apply, val_main_v104_apply, val_main_cst_14_apply, val_main_v93_apply, val_main_v92_apply,
    val_main_v108_apply, val_main_v107_apply, val_main_cst_15_apply, val_main_v101_apply,
    l1_at, iou_at, bgRatio_at, score_at]
  rfl

end Cert.ReferenceIdeal.Entry

end
-- ==== Proof.PreFacts.lean ====
/-
  What the printed precondition says of the four inputs, entry by entry.

  The precondition is the conjunction of five "for all entries" tests, each printed as a reduction by `and` of a
  one-bit array from the constant 1 into a result with a single index. The conjunction being 1 makes each of the five
  reductions 1, and such a reduction being 1 makes every entry of its one-bit array 1. Entry by entry:
  * |x| < +∞ on the extended reals, where |x| = max x (-x): x is neither -∞ nor +∞, so it is a real number;
  * x ≥ 0 on the last-axis slice [2:4] of the ground-truth box array: the slice at (b, q, j) is the array at
    (b, q, 2 + j), so the entries (b, q, 2) and (b, q, 3) are non-negative;
  * the signed word comparison l ≥ 0: the label read as a signed integer is non-negative.
-/
import Idealize.ShloMosaic.Lib.ReduceAll
import Idealize.ShloMosaic.Lib.ValueIdx
import Idealize.ShloMosaic.PureOps.Ideal
import Idealize.ShloMosaic.PureOps.Ideal.Laws
import proofs.«428950_j31078383354739_3_alg».proof.Proof.Spec
import proofs.«428950_j31078383354739_3_alg».proof.Pre_finite_inputs

namespace Cert.PreFacts

open Idealize.ShloMosaic
open Cert.Pre_finite_inputs

/-- The scalar shape has one index. -/
instance : Subsingleton S_.Idx := ⟨fun a b => funext fun d => d.elim0⟩

/-- An extended real whose absolute value max x (-x) is strictly below the word 0x7F800000 (+∞) is a real number:
    at x = -∞ and at x = +∞ the absolute value is +∞, which is not below itself. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The comparison x ≥ (the word 0, which is the number 0) being 1 says 0 ≤ x. -/
theorem nonneg_of_cmp_oge (x : EReal) (h : Ideal.cmp .oge x (Ideal.ofBits .f32 0x00000000#32) = 1#1) :
    (0 : EReal) ≤ x := by
  rw [Ideal.ofBits_zero_f32] at h
  by_contra hn
  simp [Ideal.cmp, hn] at h

/-- The slice [0:64, 0:n, 2:4] of a [64 × n × 4] array, read at (b, q, j), is the array at (b, q, 2 + j). -/
theorem slice_read {n : Nat} (x : (⟨3, ![64, n, 4]⟩ : Shape).Idx → EReal)
    (hs : (⟨3, ![64, n, 4]⟩ : Shape).Slices ![0, 0, 2] ⟨3, ![64, n, 2]⟩) (b : Fin 64) (q : Fin n) (j : Fin 2) :
    extractStridedSlice ⟨3, ![64, n, 2]⟩ ![0, 0, 2] x hs (ValueIdx.ix3 b q j)
      = x (ValueIdx.ix3 b q (⟨2 + j.val, by omega⟩ : Fin 4)) := by
  unfold extractStridedSlice
  refine congrArg x (funext fun a => ?_)
  match a with
  | ⟨0, _⟩ => exact Fin.ext (Nat.zero_add _)
  | ⟨1, _⟩ => exact Fin.ext (Nat.zero_add _)
  | ⟨2, _⟩ => exact Fin.ext rfl

theorem pre_facts [Cert.Pre_finite_inputs.Facts] (a0 : FVec Ideal Cert.Pre_finite_inputs.S64x900x4 .f32) (a1 : FVec Ideal Cert.Pre_finite_inputs.S64x900x92 .f32) (a2 : FVec Ideal Cert.Pre_finite_inputs.S64x300x4 .f32) (a3 : IVec Cert.Pre_finite_inputs.S64x300 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
    ∧ (∀ (b : Fin 64) (q : Fin 300), (0 : EReal) ≤ a2 (ValueIdx.ix3 b q 2) ∧ (0 : EReal) ≤ a2 (ValueIdx.ix3 b q 3))
    ∧ (∀ i, 0 ≤ (a3 i).toInt) := by
  -- the one entry of the result, with the printed chain of operations unfolded and the conjunction split
  have h0 := congrFun h ValueIdx.ix0
  dsimp only [fn, fn_part1] at h0
  simp only [andi, IntOp.andi_eq_one] at h0
  obtain ⟨⟨⟨⟨r0, r1⟩, r2⟩, r4⟩, r5⟩ := h0
  -- each reduction by `and` being 1 makes every entry of its one-bit array 1
  have e0 := Host.reduce_andi_all _ _ _ _ _ r0
  have e1 := Host.reduce_andi_all _ _ _ _ _ r1
  have e2 := Host.reduce_andi_all _ _ _ _ _ r2
  have e4 := Host.reduce_andi_all _ _ _ _ _ r4
  have e5 := Host.reduce_andi_all _ _ _ _ _ r5
  refine ⟨fun i => real_of_abs_lt_inf _ (e0 i), fun i => real_of_abs_lt_inf _ (e1 i),
    fun i => real_of_abs_lt_inf _ (e2 i), fun b q => ⟨?_, ?_⟩, fun i => ?_⟩
  · have := nonneg_of_cmp_oge _ (e4 (ValueIdx.ix3 b q (0 : Fin 2)))
    rwa [slice_read] at this
  · have := nonneg_of_cmp_oge _ (e4 (ValueIdx.ix3 b q (1 : Fin 2)))
    rwa [slice_read] at this
  · exact IntOp.cmpi_sge.1 (e5 i)

end Cert.PreFacts
-- ==== Proof.Bridge.lean ====
/-
  The two spellings of the matching cost are one number.

  On finite boxes (every coordinate, size and score a real number), the second box's sizes non-negative, and a
  non-negative label:
  the label's one-hot column picks out exactly the score the gather reads; the row minus itself contracts to zero;
  the left-to-right sum of the four distances is the reduction from zero; multiplying by 1.0 and adding 0.0 change nothing;
  and bg - iou = -(iou - bg) because iou is a real number: the union of the two boxes is at least the second box's
  area, which is at least one pixel.
-/
import proofs.«428950_j31078383354739_3_alg».proof.Proof.Spec
import Idealize.ShloMosaic.PureOps.Ideal
import Idealize.ShloMosaic.PureOps.Ideal.Laws
import Mathlib.Data.EReal.Operations
import Mathlib.Algebra.BigOperators.Fin
import Mathlib.Tactic.Linarith
import Mathlib.Tactic.NormNum
import Mathlib.Tactic.Ring

noncomputable section

namespace Cert.BoxCost

open Idealize.ShloMosaic
open scoped BigOperators

/-! ## The three literals -/

theorem half_eq : half = ((1 / 2 : ℝ) : EReal) := by
  simp [half, Ideal.ofBits, Ideal.ieee]
  rw [← EReal.coe_mul]
  norm_num

theorem one_eq : one = ((1 : ℝ) : EReal) := by
  simp [one, Ideal.ofBits, Ideal.ieee]
  rw [← EReal.coe_mul, ← EReal.coe_one]
  norm_num

theorem zero_eq : zero = 0 := Ideal.ofBits_zero_f32

theorem one_eq_one : one = (1 : EReal) := by rw [one_eq, EReal.coe_one]

/-! ## The label: clipped and wrapped agree on a non-negative label -/

theorem slt_zero_false (l : BitVec 32) (hl : 0 ≤ l.toInt) : l.slt 0#32 = false := by
  rw [BitVec.slt, decide_eq_false_iff_not]
  have : (0#32 : BitVec 32).toInt = 0 := by decide
  omega

theorem wrapLabel_of_nonneg (l : BitVec 32) (hl : 0 ≤ l.toInt) : wrapLabel l = l := by
  have h := slt_zero_false l hl
  simp [wrapLabel, Scalar.select, IntOp.cmpi, h]

theorem toInt_toNat_of_nonneg (l : BitVec 32) (hl : 0 ≤ l.toInt) : l.toInt.toNat = l.toNat := by
  have h := BitVec.toInt_eq_toNat_cond l
  have := l.isLt
  split at h <;> omega

theorem clipLabel_toNat (l : BitVec 32) (hl : 0 ≤ l.toInt) : (clipLabel l).toNat = (gatherCol l).val := by
  show (clipLabel l).toNat = min (wrapLabel l).toInt.toNat 91
  rw [wrapLabel_of_nonneg l hl, toInt_toNat_of_nonneg l hl]
  have h0 := slt_zero_false l hl
  have h91 : (91#32 : BitVec 32).toInt = 91 := by decide
  have hc := BitVec.toInt_eq_toNat_cond l
  have hlt := l.isLt
  simp only [clipLabel, IntOp.minsi, IntOp.maxsi, h0, Bool.false_eq_true, if_false]
  by_cases h : (91#32 : BitVec 32).slt l = true
  · rw [if_pos h]
    rw [BitVec.slt, decide_eq_true_eq] at h
    have : (91#32 : BitVec 32).toNat = 91 := by decide
    split at hc <;> omega
  · rw [if_neg h]
    rw [BitVec.slt, decide_eq_true_eq] at h
    split at hc <;> omega

theorem toInt_setWidth_ofBool (b : Bool) : ((BitVec.ofBool b).setWidth 32).toInt = if b then 1 else 0 := by
  cases b <;> decide

theorem hot_clip (l : BitVec 32) (hl : 0 ≤ l.toInt) (k : Fin 92) :
    hot (clipLabel l) k = if k = gatherCol l then 1 else 0 := by
  have hc := clipLabel_toNat l hl
  have hk := k.isLt
  have hg := (gatherCol l).isLt
  have hcm : IntOp.cmpi .eq (clipLabel l) (BitVec.ofNat 32 k.val) = BitVec.ofBool (clipLabel l == BitVec.ofNat 32 k.val) := rfl
  unfold hot
  rw [hcm, toInt_setWidth_ofBool]
  by_cases h : k = gatherCol l
  · have he : clipLabel l = BitVec.ofNat 32 k.val := by
      apply BitVec.eq_of_toNat_eq
      rw [hc, BitVec.toNat_ofNat, h]
      omega
    rw [if_pos h, he]
    simp
  · have hne : (clipLabel l == BitVec.ofNat 32 k.val) = false := by
      rw [beq_eq_false_iff_ne]
      intro he
      apply h
      apply Fin.ext
      have h2 := congrArg BitVec.toNat he
      rw [hc, BitVec.toNat_ofNat] at h2
      omega
    rw [if_neg h, hne]
    simp

/-! ## The box quantities on real numbers -/

theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

def loR (c s : ℝ) : ℝ := c - 1 / 2 * s
def hiR (c s : ℝ) : ℝ := c + 1 / 2 * s
def overlapR (l₁ h₁ l₂ h₂ : ℝ) : ℝ := max (min h₁ h₂ - max l₁ l₂ + 1) 0
def lenR (l h : ℝ) : ℝ := max (h - l + 1) 0

theorem lo_coe (c s : ℝ) : lo (c : EReal) (s : EReal) = ((loR c s : ℝ) : EReal) := by
  simp only [lo, loR, half_eq, EReal.coe_sub, EReal.coe_mul]
theorem hi_coe (c s : ℝ) : hi (c : EReal) (s : EReal) = ((hiR c s : ℝ) : EReal) := by
  simp only [hi, hiR, half_eq, EReal.coe_add, EReal.coe_mul]
theorem overlap_coe (l₁ h₁ l₂ h₂ : ℝ) :
    overlap (l₁ : EReal) (h₁ : EReal) (l₂ : EReal) (h₂ : EReal) = ((overlapR l₁ h₁ l₂ h₂ : ℝ) : EReal) := by
  simp only [overlap, overlapR, one_eq, zero_eq, coe_max', coe_min', EReal.coe_add, EReal.coe_sub, EReal.coe_zero]
theorem len_coe (l h : ℝ) : len (l : EReal) (h : EReal) = ((lenR l h : ℝ) : EReal) := by
  simp only [len, lenR, one_eq, zero_eq, coe_max', EReal.coe_add, EReal.coe_sub, EReal.coe_zero]

/-- A box's own length along an axis is its size plus one pixel, so at least 1 for a non-negative size. -/
theorem one_le_lenR (c s : ℝ) (hs : 0 ≤ s) : 1 ≤ lenR (loR c s) (hiR c s) := by
  have h : hiR c s - loR c s + 1 = s + 1 := by unfold hiR loR; ring
  unfold lenR
  rw [h]
  exact le_trans (by linarith) (le_max_left _ _)

theorem lenR_nonneg (l h : ℝ) : 0 ≤ lenR l h := le_max_right _ _
theorem overlapR_nonneg (l₁ h₁ l₂ h₂ : ℝ) : 0 ≤ overlapR l₁ h₁ l₂ h₂ := le_max_right _ _

/-- The overlap of two intervals is at most the first interval's own length. -/
theorem overlapR_le_lenR (l₁ h₁ l₂ h₂ : ℝ) : overlapR l₁ h₁ l₂ h₂ ≤ lenR l₁ h₁ := by
  unfold overlapR lenR
  apply max_le_max _ le_rfl
  have h1 : min h₁ h₂ ≤ h₁ := min_le_left _ _
  have h2 : l₁ ≤ max l₁ l₂ := le_max_left _ _
  linarith

/-- The union, on reals: first area plus second area minus the intersection. It is at least one pixel when the second
    box's sizes are non-negative. -/
theorem unionR_pos (a₁ a₂ b₁ b₂ i₁ i₂ : ℝ) (ha₁ : 0 ≤ a₁) (hb₁ : 1 ≤ b₁) (hb₂ : 1 ≤ b₂)
    (hi₁ : 0 ≤ i₁) (hi₂ : 0 ≤ i₂) (h₁ : i₁ ≤ a₁) (h₂ : i₂ ≤ a₂) : 0 < a₁ * a₂ + b₁ * b₂ - i₁ * i₂ := by
  have hi : i₁ * i₂ ≤ a₁ * a₂ := mul_le_mul h₁ h₂ hi₂ ha₁
  have hb : 1 ≤ b₁ * b₂ := by nlinarith
  linarith

/-- On finite boxes whose second box has non-negative sizes, iou is a real number. -/
theorem iou_real (p g : Fin 4 → EReal)
    (hp : ∀ k, ∃ r : ℝ, p k = (r : EReal)) (hg : ∀ k, ∃ r : ℝ, g k = (r : EReal))
    (hg2 : (0 : EReal) ≤ g 2) (hg3 : (0 : EReal) ≤ g 3) : ∃ r : ℝ, iou p g = (r : EReal) := by
  obtain ⟨p0, hp0⟩ := hp 0
  obtain ⟨p1, hp1⟩ := hp 1
  obtain ⟨p2, hp2⟩ := hp 2
  obtain ⟨p3, hp3⟩ := hp 3
  obtain ⟨g0, hg0⟩ := hg 0
  obtain ⟨g1, hg1⟩ := hg 1
  obtain ⟨g2, hg2'⟩ := hg 2
  obtain ⟨g3, hg3'⟩ := hg 3
  rw [hg2'] at hg2
  rw [hg3'] at hg3
  have hs2 : 0 ≤ g2 := by exact_mod_cast hg2
  have hs3 : 0 ≤ g3 := by exact_mod_cast hg3
  have hinter : inter p g = ((overlapR (loR p0 p2) (hiR p0 p2) (loR g0 g2) (hiR g0 g2)
      * overlapR (loR p1 p3) (hiR p1 p3) (loR g1 g3) (hiR g1 g3) : ℝ) : EReal) := by
    simp only [inter, hp0, hp1, hp2, hp3, hg0, hg1, hg2', hg3', lo_coe, hi_coe, overlap_coe, EReal.coe_mul]
  have hunion : union p g = ((lenR (loR p0 p2) (hiR p0 p2) * lenR (loR p1 p3) (hiR p1 p3)
      + lenR (loR g0 g2) (hiR g0 g2) * lenR (loR g1 g3) (hiR g1 g3)
      - overlapR (loR p0 p2) (hiR p0 p2) (loR g0 g2) (hiR g0 g2)
        * overlapR (loR p1 p3) (hiR p1 p3) (loR g1 g3) (hiR g1 g3) : ℝ) : EReal) := by
    rw [union, hinter]
    simp only [area, hp0, hp1, hp2, hp3, hg0, hg1, hg2', hg3', lo_coe, hi_coe, len_coe, EReal.coe_mul, EReal.coe_add,
      EReal.coe_sub]
  have hpos := unionR_pos (lenR (loR p0 p2) (hiR p0 p2)) (lenR (loR p1 p3) (hiR p1 p3))
    (lenR (loR g0 g2) (hiR g0 g2)) (lenR (loR g1 g3) (hiR g1 g3))
    (overlapR (loR p0 p2) (hiR p0 p2) (loR g0 g2) (hiR g0 g2))
    (overlapR (loR p1 p3) (hiR p1 p3) (loR g1 g3) (hiR g1 g3))
    (lenR_nonneg _ _) (one_le_lenR g0 g2 hs2) (one_le_lenR g1 g3 hs3)
    (overlapR_nonneg _ _ _ _) (overlapR_nonneg _ _ _ _) (overlapR_le_lenR _ _ _ _) (overlapR_le_lenR _ _ _ _)
  rw [iou, hunion, Ideal.div_coe (ne_of_gt hpos), hinter, ← EReal.coe_mul]
  exact ⟨_, rfl⟩

/-- For a real number r and any extended real b, -(r - b) = b - r. -/
theorem neg_coe_sub (r : ℝ) (b : EReal) : -((r : EReal) - b) = b - (r : EReal) := by
  rw [EReal.neg_sub (Or.inl (EReal.coe_ne_bot r)) (Or.inl (EReal.coe_ne_top r)), add_comm, sub_eq_add_neg]

/-! ## The two contractions and the assembly -/

/-- The score row contracted with the one-hot column of column `c` is the score at `c`. -/
theorem sum_mul_hot (lp : Fin 92 → EReal) (c : Fin 92) :
    ∑ k : Fin 92, lp k * (if k = c then (1 : EReal) else 0) = lp c := by
  simp only [mul_ite, mul_one, mul_zero]
  rw [Finset.sum_ite_eq']
  simp

/-- A real score row minus itself contracts to zero with anything. -/
theorem sum_sub_self_mul (lp : Fin 92 → EReal) (h : Fin 92 → EReal) (hlp : ∀ k, ∃ r : ℝ, lp k = (r : EReal)) :
    ∑ k : Fin 92, (lp k - lp k) * h k = 0 := by
  apply Finset.sum_eq_zero
  intro k _
  obtain ⟨r, hr⟩ := hlp k
  rw [hr, ← EReal.coe_sub, sub_self, EReal.coe_zero, zero_mul]

theorem costKernel_eq_costReference (p g : Fin 4 → EReal) (lp : Fin 92 → EReal) (l : BitVec 32)
    (hp : ∀ k, ∃ r : ℝ, p k = (r : EReal)) (hg : ∀ k, ∃ r : ℝ, g k = (r : EReal)) (hlp : ∀ k, ∃ r : ℝ, lp k = (r : EReal))
    (hg2 : (0 : EReal) ≤ g 2) (hg3 : (0 : EReal) ≤ g 3)
    (hl : 0 ≤ l.toInt) :
    costKernel p g lp (clipLabel l) = costReference p g (lp (gatherCol l)) := by
  obtain ⟨r, hr⟩ := iou_real p g hp hg hg2 hg3
  have hhot : ∀ k, hot (clipLabel l) k = if k = gatherCol l then (1 : EReal) else 0 := fun k => hot_clip l hl k
  unfold costKernel costReference
  simp only [hhot, sum_mul_hot, sum_sub_self_mul lp _ hlp, zero_eq, one_eq_one, one_mul, zero_add, add_zero,
    Fin.sum_univ_four]
  rw [hr, neg_coe_sub, sub_eq_add_neg (_ + _) (lp (gatherCol l))]

end Cert.BoxCost

end
-- ==== Proof.lean ====
/-
  The pairwise detection-matching cost: a Pallas kernel against its jnp reference, equal entry by entry over the
  extended reals, for finite inputs, ground-truth boxes of non-negative width and height, and non-negative labels.

  cost[b, n, q] = L1(pred box (b, n), gt box (b, q)) + (bg - iou)(pred box, gt box) - score[b, n, label[b, q]].

  The kernel: a grid of 16 points, each staging four batch rows; the body loops over the four rows and stores one
  [900, 300] slab per trip. Its array after the run is read off the generated frame run: the trips' stores tile the
  staged block (KernelBlock), the sixteen blocks tile the array (KernelArray), and a stored slab at an entry is the
  specification's kernel-side cost of the rows it loaded (KernelEntry, KernelValue). The reference: its generated run,
  read one operation at a time down to the same boxes, scores and label (RefEntry).
  The two costs are one number (Bridge): the label's one-hot column contracted with the score row is the gathered
  score (the scores are finite; a non-negative label clips and clamps to the same column); the second contraction, of
  the row less itself, is zero; the four distances sum in any order; and bg - iou = -(iou - bg) because iou is a real
  number: the union of the two boxes is at least the ground-truth box's area, which is at least one pixel.
  The ideal pass's one rewrite (a widening of a narrowing replaced by its operand) is its rule's statement.
-/
import proofs.«428950_j31078383354739_3_alg».proof.Defs
import proofs.«428950_j31078383354739_3_alg».proof.Proof.Gen.Kernel
import proofs.«428950_j31078383354739_3_alg».proof.Proof.Gen.Kernel.Skeleton
import proofs.«428950_j31078383354739_3_alg».proof.Proof.Gen.Kernel.Loops
import proofs.«428950_j31078383354739_3_alg».proof.Proof.Gen.Kernel.Launch
import proofs.«428950_j31078383354739_3_alg».proof.Proof.Gen.Kernel.Points
import proofs.«428950_j31078383354739_3_alg».proof.Proof.Gen.Kernel.Frame
import proofs.«428950_j31078383354739_3_alg».proof.Proof.Gen.KernelIdeal
import proofs.«428950_j31078383354739_3_alg».proof.Proof.Gen.KernelIdeal.Skeleton
import proofs.«428950_j31078383354739_3_alg».proof.Proof.Gen.KernelIdeal.Loops
import proofs.«428950_j31078383354739_3_alg».proof.Proof.Gen.KernelIdeal.Launch
import proofs.«428950_j31078383354739_3_alg».proof.Proof.Gen.KernelIdeal.Points
import proofs.«428950_j31078383354739_3_alg».proof.Proof.Gen.KernelIdeal.Frame
import proofs.«428950_j31078383354739_3_alg».proof.Proof.Gen.KernelIdeal.Value
import proofs.«428950_j31078383354739_3_alg».proof.Proof.Gen.ReferenceIdeal
import proofs.«428950_j31078383354739_3_alg».proof.Proof.Gen.ReferenceIdeal.Run
import proofs.«428950_j31078383354739_3_alg».proof.Proof.Gen.ReferenceIdeal.Read
import proofs.«428950_j31078383354739_3_alg».proof.Proof.Gen.Pre_finite_inputs
import proofs.«428950_j31078383354739_3_alg».proof.Proof.KernelValue
import proofs.«428950_j31078383354739_3_alg».proof.Proof.RefEntry
import proofs.«428950_j31078383354739_3_alg».proof.Proof.PreFacts
import proofs.«428950_j31078383354739_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: widening the narrowed score block back is the identity on the extended reals. -/
theorem preserves : Cert.preserves_Kernel_KernelIdeal :=
  IdealRules.truncf_extf.statement _ .f32 .bf16

/-- Both runs end with the same array: at each entry the reference's cost (its run, read) is the kernel's (the frame
    run, read), by the bridge under what the precondition says of that entry's boxes, scores and label. -/
theorem algebraic : Cert.algebraic_KernelIdeal_ReferenceIdeal := by
  intro m ρ m' ρ' hpre hagree
  refine ⟨fun c => (Cert.KernelIdeal.Gen.dats m 0 c).arrAt 4 Cert.KernelIdeal.cfg0.N,
    Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, n, q, rfl⟩ : ∃ (b : Fin 64) (n : Fin 900) (q : Fin 300), i = ValueIdx.ix3 b n q :=
    ⟨i 0, i 1, i 2, ValueIdx.eq_ix3 i⟩
  obtain ⟨h0, h1, h2, hs, hl⟩ := Cert.PreFacts.pre_facts _ _ _ _ (hpre c)
  rw [Cert.ReferenceIdeal.Read.val_main_v109_eq, Cert.ReferenceIdeal.Entry.ref_entry, (hagree c).1, (hagree c).2.1,
    (hagree c).2.2.1, (hagree c).2.2.2]
  refine Eq.trans ?_ (Cert.KernelIdeal.Array.kernel_entry m c b n q).symm
  exact (Cert.BoxCost.costKernel_eq_costReference _ _ _ _ (fun k => h0 _) (fun k => h2 _) (fun k => h1 _)
    (hs b q).1 (hs b q).2 (hl _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
